-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2048 : Shape := ⟨1, ![2048]⟩
abbrev S2048x3 : Shape := ⟨2, ![2048, 3]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x4096 .f32) (main_arg1 : IVec S2048 32) (main_arg2 : FVec F S2048x3 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S2048x3 .f32 := Host.absf main_arg2
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 4096#32
  let main_v13 : IVec S2048 32 := broadcastInDim S2048 ![] bcast_S_S2048 main_c_4
  let main_v14 : IVec S2048 1 := cmpi .slt main_arg1 main_v13
  let main_c_5 : IVec S_ 1 := constantI S_ 1 1#1
  let main_v15 : IVec S_ 1 := (fun x v => Host.reduce IntOp.andi x v reducesTo_S2048_S_d0 h_S_) main_v14 main_c_5
  fn_part1 (F := F) main_v12 main_v15
-- ==== Kernel.lean ====
abbrev S8192x4096 : Shape := ⟨2, ![8192, 4096]⟩
abbrev S2048 : Shape := ⟨1, ![2048]⟩
abbrev S2048x3 : Shape := ⟨2, ![2048, 3]⟩
abbrev S_ : Shape := ⟨0, ![]⟩
abbrev S2048x1 : Shape := ⟨2, ![2048, 1]⟩
abbrev S1x4096 : Shape := ⟨2, ![1, 4096]⟩
abbrev S2048x4096 : Shape := ⟨2, ![2048, 4096]⟩
abbrev S4096x2048 : Shape := ⟨2, ![4096, 2048]⟩
abbrev S4096x3 : Shape := ⟨2, ![4096, 3]⟩
abbrev S4096x8 : Shape := ⟨2, ![4096, 8]⟩
abbrev S8x8192 : Shape := ⟨2, ![8, 8192]⟩
abbrev S1024x4096 : Shape := ⟨2, ![1024, 4096]⟩
abbrev S8x1024 : Shape := ⟨2, ![8, 1024]⟩
abbrev S8x4096 : Shape := ⟨2, ![8, 4096]⟩
abbrev S4096x1024 : Shape := ⟨2, ![4096, 1024]⟩
abbrev S1x1 : Shape := ⟨2, ![1, 1]⟩
abbrev S1x8192 : Shape := ⟨2, ![1, 8192]⟩
abbrev S1 : Shape := ⟨1, ![1]⟩

abbrev nBuf : Space → Nat
  | .hbm => 24
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S2048, .i32⟩
  | .hbm, ⟨2, _⟩ => ⟨S2048x3, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S1x4096, .i32⟩
  | .hbm, ⟨13, _⟩ => ⟨S2048x4096, .i32⟩
  | .hbm, ⟨14, _⟩ => ⟨S2048x4096, .i32⟩
  | .hbm, ⟨15, _⟩ => ⟨S2048x4096, .i1⟩
  | .hbm, ⟨16, _⟩ => ⟨S2048x4096, .f32⟩
  | .hbm, ⟨17, _⟩ => ⟨S4096x2048, .f32⟩
  | .hbm, ⟨18, _⟩ => ⟨S4096x3, .f32⟩
  | .hbm, ⟨19, _⟩ => ⟨S_, .i32⟩
  | .hbm, ⟨20, _⟩ => ⟨S_, .f32⟩
  | .hbm, ⟨21, _⟩ => ⟨S4096x8, .f32⟩
  | .hbm, ⟨22, _⟩ => ⟨S8x8192, .f32⟩
  | .hbm, ⟨23, _⟩ => ⟨S1x1, .f32⟩
  | .local _ .vmem, ⟨0, _⟩ => ⟨S1024x4096, .f32⟩
  | .local _ .vmem, ⟨1, _⟩ => ⟨S1024x4096, .f32⟩
  | .local _ .vmem, ⟨2, _⟩ => ⟨S4096x8, .f32⟩
  | .local _ .vmem, ⟨3, _⟩ => ⟨S8x1024, .f32⟩
  | .local _ .vmem, ⟨4, _⟩ => ⟨S8x1024, .f32⟩
  | .local _ .vmem, ⟨5, _⟩ => ⟨S8x8192, .f32⟩
  | .local _ .vmem, ⟨6, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  bcast_S1x4096_S2048x4096_0_1 : S1x4096.BroadcastsInDim S2048x4096 (![0, 1] : Fin 2 → Fin S2048x4096.rank)
  transposes_S2048x4096_S4096x2048_1_0 : S2048x4096.Transposes [1, 0] S4096x2048
  pads_S4096x3_S4096x8_000_050 : S4096x3.Pads (![0, 0] : Fin 2 → Nat) ![0, 5] ![0, 0] S4096x8
  h_S_ : 0 < S_.numel
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  transposes_S4096x8_p1_0_S8x4096 : S4096x8.Transposes [1, 0] S8x4096
  inb_S1024x4096_S1024x4096_0_0 : ∀ a, (![0, 0] : Fin 2 → Nat) a + S1024x4096.size a ≤ S1024x4096.size a
  h_S1024x4096 : 0 < S1024x4096.numel
  transposes_S1024x4096_p1_0_S4096x1024 : S1024x4096.Transposes [1, 0] S4096x1024
  inb_S8x1024_S8x1024_0_0 : ∀ a, (![0, 0] : Fin 2 → Nat) a + S8x1024.size a ≤ S8x1024.size a
  h_S8x1024 : 0 < S8x1024.numel
  inb_S8x8192_S1x8192_0_0 : ∀ a, (![0, 0] : Fin 2 → Nat) a + S1x8192.size a ≤ S8x8192.size a
  h_S1x8192 : 0 < S1x8192.numel
  shapeCasts_S1x8192_S1x8192 : S1x8192.ShapeCasts S1x8192
  inb_S8x8192_S1x8192_1_0 : ∀ a, (![1, 0] : Fin 2 → Nat) a + S1x8192.size a ≤ S8x8192.size a
  inb_S8x8192_S1x8192_2_0 : ∀ a, (![2, 0] : Fin 2 → Nat) a + S1x8192.size a ≤ S8x8192.size a
  slices_S1x8192_o0_8191_S1x1 : S1x8192.Slices ![0, 8191] S1x1
  broadcasts_S1x1_S1x8192 : S1x1.Broadcasts S1x8192
  reduces_S1x8192_S1 : S1x8192.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  dot_S4096x2048_S2048x3_S4096x3_1_0_0_1_n_n_wf : DotDims.WF S4096x2048 S2048x3 S4096x3 [1] [0] [0] [1] [] []
  dot_S8x4096_S4096x1024_S8x1024_1_0_0_1_n_n_wf : DotDims.WF S8x4096 S4096x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .f32 = 32 ∨ (Rect.block (s := S4096x8) S4096x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x8192.size a
  hwx0_2 : ∀ i : grid0.Coords, EltTy.bits .f32 = 32 ∨ (Rect.block (s := S8x8192) S8x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x8192.size a ≤ S8x8192.size a
  hwx1_0 : ∀ i : grid1.Coords, EltTy.bits .f32 = 32 ∨ (Rect.block (s := S8x8192) S8x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

def dot_S4096x2048_S2048x3_S4096x3_1_0_0_1_n_n : DotDims S4096x2048 S2048x3 S4096x3 where
  lhsContracting := [1]
  rhsContracting := [0]
  lhsNonContracting := [0]
  rhsNonContracting := [1]
  lhsBatch := []
  rhsBatch := []
  wf := dot_S4096x2048_S2048x3_S4096x3_1_0_0_1_n_n_wf
def dot_S8x4096_S4096x1024_S8x1024_1_0_0_1_n_n : DotDims S8x4096 S4096x1024 S8x1024 where
  lhsContracting := [1]
  rhsContracting := [0]
  lhsNonContracting := [0]
  rhsNonContracting := [1]
  lhsBatch := []
  rhsBatch := []
  wf := dot_S8x4096_S4096x1024_S8x1024_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S8x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S2048 : Shape := ⟨1, ![2048]⟩
abbrev S2048x3 : Shape := ⟨2, ![2048, 3]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S8192x2048 : Shape := ⟨2, ![8192, 2048]⟩
abbrev S8192x3 : Shape := ⟨2, ![8192, 3]⟩
abbrev S8192x1 : Shape := ⟨2, ![8192, 1]⟩
abbrev S1x8192 : Shape := ⟨2, ![1, 8192]⟩
abbrev S8192x8192 : Shape := ⟨2, ![8192, 8192]⟩
abbrev S8192 : Shape := ⟨1, ![8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048, .i32⟩
  | .hbm, ⟨2, _⟩ => ⟨S2048x3, .f32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S8192x2048, .f32⟩
  | .hbm, ⟨22, _⟩ => ⟨S8192x2048, .i1⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x3, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x1, .f32⟩
  | .hbm, ⟨51, _⟩ => ⟨S1x1, .f32⟩
  | .hbm, ⟨52, _⟩ => ⟨S1x1, .f32⟩
  | .hbm, ⟨53, _⟩ => ⟨S1x1, .f32⟩
  | .hbm, ⟨54, _⟩ => ⟨S_, .f32⟩
  | .hbm, ⟨55, _⟩ => ⟨S1x1, .f32⟩
  | .hbm, ⟨56, _⟩ => ⟨S1x1, .f32⟩
  | .hbm, ⟨57, _⟩ => ⟨S_, .f32⟩
  | .hbm, ⟨58, _⟩ => ⟨S1x1, .f32⟩
  | .hbm, ⟨59, _⟩ => ⟨S1x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S8192x2048_1 : S2048.BroadcastsInDim S8192x2048 (![1] : Fin 1 → Fin S8192x2048.rank)
  bcast_S_S8192x2048 : S_.BroadcastsInDim S8192x2048 (![] : Fin 0 → Fin S8192x2048.rank)
  slices_S8192x3_S8192x1_0_0 : S8192x3.Slices ![0, 0] S8192x1
  slices_S8192x3_S8192x1_0_1 : S8192x3.Slices ![0, 1] S8192x1
  slices_S8192x3_S8192x1_0_2 : S8192x3.Slices ![0, 2] S8192x1
  transposes_S8192x1_S1x8192_1_0 : S8192x1.Transposes [1, 0] S1x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  slices_S8192x1_S1x1_8191_0 : S8192x1.Slices ![8191, 0] S1x1
  bcast_S_S1x1 : S_.BroadcastsInDim S1x1 (![] : Fin 0 → Fin S1x1.rank)
  gather_S8192x4096_S2048x1_S8192x2048_0_1_n_n_1_1_81921_wf : GatherDims.WF S8192x4096 S2048x1 S8192x2048 [0] [1] [] [1] [] 1 ![8192, 1]
  dot_S8192x2048_S2048x3_S8192x3_1_0_0_1_n_n_wf : DotDims.WF S8192x2048 S2048x3 S8192x3 [1] [0] [0] [1] [] []
  dot_S8192x1_S1x8192_S8192x8192_1_0_0_1_n_n_wf : DotDims.WF S8192x1 S1x8192 S8192x8192 [1] [0] [0] [1] [] []
  dot_S8192x8192_S8192x1_S8192x1_1_0_0_1_n_n_wf : DotDims.WF S8192x8192 S8192x1 S8192x1 [1] [0] [0] [1] [] []

variable [Facts₀]

def gather_S8192x4096_S2048x1_S8192x2048_0_1_n_n_1_1_81921 : GatherDims S8192x4096 S2048x1 S8192x2048 where
  offsetDims := [0]
  collapsedSliceDims := [1]
  operandBatchingDims := []
  startIndicesBatchingDims := []
  startIndexMap := [1]
  indexVectorDim := 1
  sliceSizes := ![8192, 1]
  wf := gather_S8192x4096_S2048x1_S8192x2048_0_1_n_n_1_1_81921_wf
def dot_S8192x2048_S2048x3_S8192x3_1_0_0_1_n_n : DotDims S8192x2048 S2048x3 S8192x3 where
  lhsContracting := [1]
  rhsContracting := [0]
  lhsNonContracting := [0]
  rhsNonContracting := [1]
  lhsBatch := []
  rhsBatch := []
  wf := dot_S8192x2048_S2048x3_S8192x3_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.Spec.lean ====
/-
  The mathematics both programs are read to, over the extended reals.

  From `x : [8192, 4096]`, integer column words `idx : [2048]` and `w : [2048, 3]`:
  `proj c r = ∑ j, x[r, col j] · w[j, c]` — gather the indexed columns, then project (the reference's order);
  `scat c r = ∑ f, (∑ j, [col j = f] · w[j, c]) · x[r, f]` — sum the weight rows into the columns they index,
  then one dense product (the kernel's order). The two agree where every entry is a real number: the
  inner sum distributes over the product and the indicator collapses the sum over `f`.
  `attn q k v` is the attention of the LAST query against all keys for head width one, through the logistic:
  logits `q[8191] · k[s]`, their maximum subtracted, exponentials normalised by their sum, the
  weighted sum of `v`, then `1 / (1 + e^(-·))`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![8192, 4096]⟩
abbrev SI : Shape := ⟨1, ![2048]⟩
abbrev SW : Shape := ⟨2, ![2048, 3]⟩

/-- Every index word, read as a signed integer, is a column of `x`: `0 ≤ idx[j] < 4096`. -/
def InRange (idx : SI.Idx → BitVec 32) : Prop :=
  ∀ j : Fin 2048, 0 ≤ (idx (ix1 j)).toInt ∧ (idx (ix1 j)).toInt < 4096

/-- The column word `j` selects (its value where the word is in range). -/
def col (idx : SI.Idx → BitVec 32) (j : Fin 2048) : Fin 4096 :=
  ⟨(idx (ix1 j)).toNat % 4096, Nat.mod_lt _ (by decide)⟩

/-- Every entry is a real number. -/
def Finite {s : Shape} (x : s.Idx → EReal) : Prop := ∀ i, ∃ r : ℝ, x i = (r : EReal)

/-- Gather, then project: entry `(r, c)` of `x[:, idx] @ w`. -/
def proj (x : SX.Idx → EReal) (idx : SI.Idx → BitVec 32) (w : SW.Idx → EReal) (c : Fin 3) (r : Fin 8192) : EReal :=
  ∑ j : Fin 2048, x (ix2 r (col idx j)) * w (ix2 j c)

/-- Scatter the weight rows into their columns, then one dense product: entry `(c, r)` of `(onehot(idx)ᵀ @ w)ᵀ @ xᵀ`. -/
def scat (x : SX.Idx → EReal) (idx : SI.Idx → BitVec 32) (w : SW.Idx → EReal) (c : Fin 3) (r : Fin 8192) : EReal :=
  ∑ f : Fin 4096, (∑ j : Fin 2048, (if col idx j = f then (1 : EReal) else 0) * w (ix2 j c)) * x (ix2 r f)

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: distribute the inner sum, swap the two sums, collapse the indicator. -/
private theorem scat_eq_proj_real {J F : Type*} [Fintype J] [Fintype F] [DecidableEq F]
    (g : J → F) (a : J → ℝ) (b : F → ℝ) :
    ∑ f : F, (∑ j : J, (if g j = f then (1 : ℝ) else 0) * a j) * b f = ∑ j : J, b (g j) * a j := by
  simp_rw [Finset.sum_mul]
  rw [Finset.sum_comm]
  refine Finset.sum_congr rfl fun j _ => ?_
  simp only [ite_mul, one_mul, zero_mul, Finset.sum_ite_eq, Finset.mem_univ, if_true]
  exact mul_comm _ _

/-- On real entries the two orders agree. -/
theorem scat_eq_proj (x : SX.Idx → EReal) (idx : SI.Idx → BitVec 32) (w : SW.Idx → EReal) (hx : Finite x) (hw : Finite w)
    (c : Fin 3) (r : Fin 8192) : scat x idx w c r = proj x idx w c r := by
  choose x' hx' using hx
  choose w' hw' using hw
  unfold scat proj
  have hL : ∀ f : Fin 4096,
      (∑ j : Fin 2048, (if col idx j = f then (1 : EReal) else 0) * w (ix2 j c)) * x (ix2 r f)
        = (((∑ j : Fin 2048, (if col idx j = f then (1 : ℝ) else 0) * w' (ix2 j c)) * x' (ix2 r f) : ℝ) : EReal) := by
    intro f
    rw [EReal.coe_mul, coe_sum, ← hx' (ix2 r f)]
    refine congrArg (· * x (ix2 r f)) ?_
    refine Finset.sum_congr rfl fun j _ => ?_
    rw [EReal.coe_mul, ← hw' (ix2 j c)]
    refine congrArg (· * w (ix2 j c)) ?_
    by_cases h : col idx j = f
    · rw [if_pos h, if_pos h, EReal.coe_one]
    · rw [if_neg h, if_neg h, EReal.coe_zero]
  have hR : ∀ j : Fin 2048, x (ix2 r (col idx j)) * w (ix2 j c)
      = ((x' (ix2 r (col idx j)) * w' (ix2 j c) : ℝ) : EReal) := by
    intro j
    rw [EReal.coe_mul, ← hx' (ix2 r (col idx j)), ← hw' (ix2 j c)]
  rw [Finset.sum_congr rfl fun f _ => hL f, Finset.sum_congr rfl fun j _ => hR j, ← coe_sum, ← coe_sum]
  exact congrArg _ (scat_eq_proj_real (col idx) (fun j => w' (ix2 j c)) (fun f => x' (ix2 r f)))

/-- The last query row. -/
def last : Fin 8192 := ⟨8191, by decide⟩
/-- The last query's logit against key `s`. -/
def logit (q k : Fin 8192 → EReal) (s : Fin 8192) : EReal := q last * k s
/-- The largest logit (from `-∞`). -/
def peak (q k : Fin 8192 → EReal) : EReal := (Finset.univ : Finset (Fin 8192)).fold max ⊥ (logit q k)
/-- The unnormalised weight of key `s`. -/
def wgt (q k : Fin 8192 → EReal) (s : Fin 8192) : EReal := Ideal.exp (logit q k s - peak q k)
/-- The last query's attention output through the logistic. -/
def attn (q k v : Fin 8192 → EReal) : EReal :=
  Ideal.logistic (∑ s : Fin 8192, Ideal.div (wgt q k s) (∑ s' : Fin 8192, wgt q k s') * v s)

end Cert.Spec

end
-- ==== Proof.PreFacts.lean ====
/-
  What the precondition says of the three argument arrays: every entry of `x` and of `w` is a real number (its magnitude
  is below `+∞`), and every index word, read signed, lies in `[0, 4096)`.
-/
import proofs.«417990_j30554397343922_3_alg».proof.Pre_finite_inputs
import proofs.«417990_j30554397343922_3_alg».proof.Proof.Gen.Pre_finite_inputs
import proofs.«417990_j30554397343922_3_alg».proof.Proof.Spec
import Idealize.ShloMosaic.Lib.ReduceAll
import Idealize.ShloMosaic.Lib.ValueIdx
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

variable [Cert.Pre_finite_inputs.Facts]

/-- A rank-0 array has one index. -/
private instance : Subsingleton S_.Idx := ⟨fun a b => funext fun d => d.elim0⟩

/-- The pattern `0x7F800000` denotes `+∞`. -/
private theorem ofBits_inf : Ideal.ofBits .f32 0x7F800000#32 = (⊤ : EReal) := by
  simp [Ideal.ofBits, Ideal.ieee]

/-- A magnitude `max a (-a)` below `+∞` is that of a real number. -/
private theorem real_of_abs_lt (a : EReal)
    (h : Ideal.cmp .olt (max a (-a)) (Ideal.ofBits .f32 0x7F800000#32) = 1#1) : ∃ r : ℝ, a = (r : EReal) := by
  rw [ofBits_inf] at h
  simp only [Ideal.cmp, StableHlo.Predicate.ofBool_eq_one_iff, decide_eq_true_eq] at h
  induction a using EReal.rec with
  | bot => simp at h
  | coe r => exact ⟨r, rfl⟩
  | top => simp at h

/-- The precondition, all ones, gives the three facts the value proof uses. -/
theorem of_pre (x : FVec Ideal S8192x4096 .f32) (idx : IVec S2048 32) (w : FVec Ideal S2048x3 .f32)
    (h : Cert.Pre_finite_inputs.fn (F := Ideal) x idx w = fun _ => 1#1) :
    Cert.Spec.Finite x ∧ Cert.Spec.Finite w ∧ Cert.Spec.InRange idx := by
  -- the predicate at its one index is a conjunction of four reductions by `and`
  have e := congrFun h ValueIdx.ix0
  dsimp only [Cert.Pre_finite_inputs.fn, Cert.Pre_finite_inputs.fn_part1] at e
  simp only [andi, IntOp.andi_eq_one] at e
  obtain ⟨⟨⟨hx, hw⟩, h0⟩, h4⟩ := e
  -- each reduction being one, every element compared is one; read each comparison back
  refine ⟨fun i => ?_, fun i => ?_, fun j => ⟨?_, ?_⟩⟩
  · exact real_of_abs_lt (x i) (Host.reduce_andi_all _ _ _ _ _ hx i)
  · exact real_of_abs_lt (w i) (Host.reduce_andi_all _ _ _ _ _ hw i)
  · have h0j := IntOp.cmpi_sge.1 (Host.reduce_andi_all _ _ _ _ _ h0 (ix1 j))
    exact h0j
  · have h4j := IntOp.cmpi_slt.1 (Host.reduce_andi_all _ _ _ _ _ h4 (ix1 j))
    exact h4j

end Cert.PreFacts

end
-- ==== Proof.RefTerm.lean ====
/-
  The reference's result as one term of its argument arrays: the gathered columns (negative words wrapped by
  4096, words outside [0, 4095] replaced by the fill value), their projection by `w`, and the attention
  of every query against all keys followed by the last row's logistic — the host operations composed in program order.
-/
import proofs.«417990_j30554397343922_3_alg».proof.ReferenceIdeal

noncomputable section

namespace Cert.ReferenceIdeal.RefValue

open Idealize.ShloMosaic Cert.ReferenceIdeal

variable {F : FTy → Type} [FloatOps F] [Facts]
open Facts₀ Facts

/-- The columns `x[:, idx]` as the host takes them. -/
def takeTerm (x : (⟨S8192x4096, .f32⟩ : BufTy).Contents (Elt F)) (idx : (⟨S2048, .i32⟩ : BufTy).Contents (Elt F)) :
    (⟨S8192x2048, .f32⟩ : BufTy).Contents (Elt F) :=
  let c : (⟨S_, .i32⟩ : BufTy).Contents (Elt F) := constantI S_ 32 0#32
  let v0 : (⟨S2048, .i32⟩ : BufTy).Contents (Elt F) := broadcastInDim S2048 ![] bcast_S_S2048 c
  let v1 : (⟨S2048, .i1⟩ : BufTy).Contents (Elt F) := cmpi .slt idx v0
  let c_0 : (⟨S_, .i32⟩ : BufTy).Contents (Elt F) := constantI S_ 32 4096#32
  let v2 : (⟨S2048, .i32⟩ : BufTy).Contents (Elt F) := broadcastInDim S2048 ![] bcast_S_S2048 c_0
  let v3 : (⟨S2048, .i32⟩ : BufTy).Contents (Elt F) := addi idx v2
  let v4 : (⟨S2048, .i32⟩ : BufTy).Contents (Elt F) := select v1 v3 idx
  let v5 : (⟨S2048x1, .i32⟩ : BufTy).Contents (Elt F) := broadcastInDim S2048x1 ![0] bcast_S2048_S2048x1_0 v4
  let c_1 : (⟨S1, .i32⟩ : BufTy).Contents (Elt F) := constantI S1 32 4095#32
  let c_2 : (⟨S_, .i32⟩ : BufTy).Contents (Elt F) := constantI S_ 32 0#32
  let v6 : (⟨S2048x1, .i32⟩ : BufTy).Contents (Elt F) := broadcastInDim S2048x1 ![] bcast_S_S2048x1 c_2
  let v7 : (⟨S2048x1, .i1⟩ : BufTy).Contents (Elt F) := cmpi .sge v5 v6
  let v8 : (⟨S1x1, .i32⟩ : BufTy).Contents (Elt F) := broadcastInDim S1x1 ![1] bcast_S1_S1x1_1 c_1
  let v9 : (⟨S2048x1, .i32⟩ : BufTy).Contents (Elt F) := broadcastInDim S2048x1 ![0, 1] bcast_S1x1_S2048x1_0_1 v8
  let v10 : (⟨S2048x1, .i1⟩ : BufTy).Contents (Elt F) := cmpi .sle v5 v9
  let v11 : (⟨S2048x1, .i1⟩ : BufTy).Contents (Elt F) := andi v7 v10
  let c_3 : (⟨S_, .i1⟩ : BufTy).Contents (Elt F) := constantI S_ 1 1#1
  let v12 : (⟨S2048, .i1⟩ : BufTy).Contents (Elt F) := Host.reduce IntOp.andi v11 c_3 reducesTo_S2048x1_S2048_d1 h_S_
  let v13 : (⟨S8192x2048, .f32⟩ : BufTy).Contents (Elt F) := Host.gather gather_S8192x4096_S2048x1_S8192x2048_0_1_n_n_1_1_81921 x v5
  let v14 : (⟨S8192x2048, .i1⟩ : BufTy).Contents (Elt F) := broadcastInDim S8192x2048 ![1] bcast_S2048_S8192x2048_1 v12
  let cst : (⟨S_, .f32⟩ : BufTy).Contents (Elt F) := constant S_ .f32 0x7FC00000#32
  let v15 : (⟨S8192x2048, .f32⟩ : BufTy).Contents (Elt F) := broadcastInDim S8192x2048 ![] bcast_S_S8192x2048 cst
  select v14 v13 v15

/-- The projection `x[:, idx] @ w`. -/
def qkvTerm (x : (⟨S8192x4096, .f32⟩ : BufTy).Contents (Elt F)) (idx : (⟨S2048, .i32⟩ : BufTy).Contents (Elt F))
    (w : (⟨S2048x3, .f32⟩ : BufTy).Contents (Elt F)) : (⟨S8192x3, .f32⟩ : BufTy).Contents (Elt F) :=
  Host.dotGeneral dot_S8192x2048_S2048x3_S8192x3_1_0_0_1_n_n none (takeTerm x idx) w

/-- Attention of every query against all keys (head width one), the last row through the logistic. -/
def attnTerm (v1 : (⟨S8192x3, .f32⟩ : BufTy).Contents (Elt F)) : (⟨S1x1, .f32⟩ : BufTy).Contents (Elt F) :=
  let v2 : (⟨S8192x1, .f32⟩ : BufTy).Contents (Elt F) := extractStridedSlice S8192x1 ![0, 0] v1 slices_S8192x3_S8192x1_0_0
  let v3 : (⟨S8192x1, .f32⟩ : BufTy).Contents (Elt F) := extractStridedSlice S8192x1 ![0, 1] v1 slices_S8192x3_S8192x1_0_1
  let v4 : (⟨S8192x1, .f32⟩ : BufTy).Contents (Elt F) := extractStridedSlice S8192x1 ![0, 2] v1 slices_S8192x3_S8192x1_0_2
  let v5 : (⟨S1x8192, .f32⟩ : BufTy).Contents (Elt F) := transpose S1x8192 [1, 0] v3 transposes_S8192x1_S1x8192_1_0
  let v6 : (⟨S8192x8192, .f32⟩ : BufTy).Contents (Elt F) := Host.dotGeneral dot_S8192x1_S1x8192_S8192x8192_1_0_0_1_n_n none v2 v5
  let cst : (⟨S_, .f32⟩ : BufTy).Contents (Elt F) := constant S_ .f32 0x3F800000#32
  let v7 : (⟨S_, .f32⟩ : BufTy).Contents (Elt F) := Host.sqrt cst
  let v8 : (⟨S8192x8192, .f32⟩ : BufTy).Contents (Elt F) := broadcastInDim S8192x8192 ![] bcast_S_S8192x8192 v7
  let v9 : (⟨S8192x8192, .f32⟩ : BufTy).Contents (Elt F) := Host.divf v6 v8
  let cst_0 : (⟨S_, .f32⟩ : BufTy).Contents (Elt F) := constant S_ .f32 0xFF800000#32
  let v10 : (⟨S8192, .f32⟩ : BufTy).Contents (Elt F) := Host.reduce FloatOps.maximumf v9 cst_0 reducesTo_S8192x8192_S8192_d1 h_S_
  let cst_1 : (⟨S_, .f32⟩ : BufTy).Contents (Elt F) := constant S_ .f32 0xFF800000#32
  let v11 : (⟨S8192, .f32⟩ : BufTy).Contents (Elt F) := broadcastInDim S8192 ![] bcast_S_S8192 cst_1
  let v12 : (⟨S8192, .f32⟩ : BufTy).Contents (Elt F) := maximumf v11 v10
  let v13 : (⟨S8192x1, .f32⟩ : BufTy).Contents (Elt F) := broadcastInDim S8192x1 ![0] bcast_S8192_S8192x1_0 v12
  let v14 : (⟨S8192x8192, .f32⟩ : BufTy).Contents (Elt F) := broadcastInDim S8192x8192 ![0, 1] bcast_S8192x1_S8192x8192_0_1 v13
  let v15 : (⟨S8192x8192, .f32⟩ : BufTy).Contents (Elt F) := subf v9 v14
  let v16 : (⟨S8192x8192, .f32⟩ : BufTy).Contents (Elt F) := Host.exp v15
  let cst_2 : (⟨S_, .f32⟩ : BufTy).Contents (Elt F) := constant S_ .f32 0x00000000#32
  let v17 : (⟨S8192, .f32⟩ : BufTy).Contents (Elt F) := Host.reduceAdd v16 cst_2 reducesTo_S8192x8192_S8192_d1 h_S_
  let v18 : (⟨S8192x1, .f32⟩ : BufTy).Contents (Elt F) := broadcastInDim S8192x1 ![0] bcast_S8192_S8192x1_0 v17
  let v19 : (⟨S8192x8192, .f32⟩ : BufTy).Contents (Elt F) := broadcastInDim S8192x8192 ![0, 1] bcast_S8192x1_S8192x8192_0_1 v18
  let v20 : (⟨S8192x8192, .f32⟩ : BufTy).Contents (Elt F) := Host.divf v16 v19
  let v21 : (⟨S8192x1, .f32⟩ : BufTy).Contents (Elt F) := Host.dotGeneral dot_S8192x8192_S8192x1_S8192x1_1_0_0_1_n_n none v20 v4
  let v22 : (⟨S1x1, .f32⟩ : BufTy).Contents (Elt F) := extractStridedSlice S1x1 ![8191, 0] v21 slices_S8192x1_S1x1_8191_0
  let v23 : (⟨S1x1, .f32⟩ : BufTy).Contents (Elt F) := Host.negf v22
  let v24 : (⟨S1x1, .f32⟩ : BufTy).Contents (Elt F) := Host.exp v23
  let cst_3 : (⟨S_, .f32⟩ : BufTy).Contents (Elt F) := constant S_ .f32 0x3F800000#32
  let v25 : (⟨S1x1, .f32⟩ : BufTy).Contents (Elt F) := broadcastInDim S1x1 ![] bcast_S_S1x1 cst_3
  let v26 : (⟨S1x1, .f32⟩ : BufTy).Contents (Elt F) := addf v25 v24
  let cst_4 : (⟨S_, .f32⟩ : BufTy).Contents (Elt F) := constant S_ .f32 0x3F800000#32
  let v27 : (⟨S1x1, .f32⟩ : BufTy).Contents (Elt F) := broadcastInDim S1x1 ![] bcast_S_S1x1 cst_4
  Host.divf v27 v26

/-- The reference's result of its three arguments. -/
def refTerm (x : (⟨S8192x4096, .f32⟩ : BufTy).Contents (Elt F)) (idx : (⟨S2048, .i32⟩ : BufTy).Contents (Elt F))
    (w : (⟨S2048x3, .f32⟩ : BufTy).Contents (Elt F)) : (⟨S1x1, .f32⟩ : BufTy).Contents (Elt F) :=
  attnTerm (qkvTerm x idx w)

end Cert.ReferenceIdeal.RefValue

end
-- ==== Proof.RefRun.lean ====
/-
  The reference's run: its host operations in order (the outlined gather's among them), each writing its own buffer, so every
  weakly fair execution terminates with the result buffer at the composed term of the three arguments and the arguments unchanged.
-/
import proofs.«417990_j30554397343922_3_alg».proof.ReferenceIdeal
import proofs.«417990_j30554397343922_3_alg».proof.Proof.Gen.ReferenceIdeal
import proofs.«417990_j30554397343922_3_alg».proof.Proof.RefTerm
import Idealize.ShloMosaic.Lib.StableHlo.Run

noncomputable section

namespace Cert.ReferenceIdeal.RefValue

open Idealize.ShloMosaic Idealize.ShloMosaic.TcCoe Idealize.SL.Sem Cert.ReferenceIdeal
open Facts₀ Facts

variable {F : FTy → Type} [FloatOps F] [Facts]
variable (m : (ℓ : Loc nD τ sig) → Buf (Elt F) ℓ) (ρ : Dev nD → PrngReg)

section Line

open Idealize.ShloMosaic.StableHlo

/-- The reference's fifty-seven operations in order, the gather's body listed where it is called: the wrap of the
    negative words by 4096 (the select among them is the body of the function the gather calls in turn), the test of
    the range [0, 4095] and its reduction over the index vector, the gather, the fill value and the select between
    them; then the projection, its three columns, the scores of every query against all keys, the softmax of each
    row, the weighted sum, the last row and its logistic. -/
private abbrev ops : List (HloOp τ sig (Elt F)) :=
  [
    TRef.nullary main_call0.c (constantI S_ 32 0#32),
    TRef.unary main_call0.c main_call0.v0 (broadcastInDim S2048 ![] bcast_S_S2048),
    TRef.binary (.of main_arg1 : TRef sig ⟨S2048, .i32⟩) main_call0.v0 main_call0.v1 (cmpi .slt),
    TRef.nullary main_call0.c_0 (constantI S_ 32 4096#32),
    TRef.unary main_call0.c_0 main_call0.v2 (broadcastInDim S2048 ![] bcast_S_S2048),
    TRef.binary (.of main_arg1 : TRef sig ⟨S2048, .i32⟩) main_call0.v2 main_call0.v3 addi,
    TRef.ternary main_call0.v1 main_call0.v3 (.of main_arg1 : TRef sig ⟨S2048, .i32⟩) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg0 : TRef sig ⟨S8192x4096, .f32⟩) main_call0.v5 main_call0.v13 (fun x i => Host.gather gather_S8192x4096_S2048x1_S8192x2048_0_1_n_n_1_1_81921 x i),
    TRef.unary main_call0.v12 main_call0.v14 (broadcastInDim S8192x2048 ![1] bcast_S2048_S8192x2048_1),
    TRef.nullary main_call0.cst (constant S_ .f32 0x7FC00000#32),
    TRef.unary main_call0.cst main_call0.v15 (broadcastInDim S8192x2048 ![] bcast_S_S8192x2048),
    TRef.ternary main_call0.v14 main_call0.v13 main_call0.v15 main_call0.v16 select,
    binary main_v0 main_arg2 main_v1 ((fun l r => Host.dotGeneral dot_S8192x2048_S2048x3_S8192x3_1_0_0_1_n_n none l r) : (⟨S8192x2048, .f32⟩ : BufTy).Contents (Elt F) → (⟨S2048x3, .f32⟩ : BufTy).Contents (Elt F) → (⟨S8192x3, .f32⟩ : BufTy).Contents (Elt F)),
    unary main_v1 main_v2 ((extractStridedSlice S8192x1 ![0, 0] · slices_S8192x3_S8192x1_0_0) : (⟨S8192x3, .f32⟩ : BufTy).Contents (Elt F) → (⟨S8192x1, .f32⟩ : BufTy).Contents (Elt F)),
    unary main_v1 main_v3 ((extractStridedSlice S8192x1 ![0, 1] · slices_S8192x3_S8192x1_0_1) : (⟨S8192x3, .f32⟩ : BufTy).Contents (Elt F) → (⟨S8192x1, .f32⟩ : BufTy).Contents (Elt F)),
    unary main_v1 main_v4 ((extractStridedSlice S8192x1 ![0, 2] · slices_S8192x3_S8192x1_0_2) : (⟨S8192x3, .f32⟩ : BufTy).Contents (Elt F) → (⟨S8192x1, .f32⟩ : BufTy).Contents (Elt F)),
    unary main_v3 main_v5 ((transpose S1x8192 [1, 0] · transposes_S8192x1_S1x8192_1_0) : (⟨S8192x1, .f32⟩ : BufTy).Contents (Elt F) → (⟨S1x8192, .f32⟩ : BufTy).Contents (Elt F)),
    binary main_v2 main_v5 main_v6 ((fun l r => Host.dotGeneral dot_S8192x1_S1x8192_S8192x8192_1_0_0_1_n_n none l r) : (⟨S8192x1, .f32⟩ : BufTy).Contents (Elt F) → (⟨S1x8192, .f32⟩ : BufTy).Contents (Elt F) → (⟨S8192x8192, .f32⟩ : BufTy).Contents (Elt F)),
    nullary main_cst (constant S_ .f32 0x3F800000#32),
    unary main_cst main_v7 (Host.sqrt : (⟨S_, .f32⟩ : BufTy).Contents (Elt F) → (⟨S_, .f32⟩ : BufTy).Contents (Elt F)),
    unary main_v7 main_v8 (broadcastInDim S8192x8192 ![] bcast_S_S8192x8192 : (⟨S_, .f32⟩ : BufTy).Contents (Elt F) → (⟨S8192x8192, .f32⟩ : BufTy).Contents (Elt F)),
    binary main_v6 main_v8 main_v9 (Host.divf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0xFF800000#32),
    binary main_v9 main_cst_0 main_v10 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v11 (broadcastInDim S8192 ![] bcast_S_S8192 : (⟨S_, .f32⟩ : BufTy).Contents (Elt F) → (⟨S8192, .f32⟩ : BufTy).Contents (Elt F)),
    binary main_v11 main_v10 main_v12 (maximumf : (⟨S8192, .f32⟩ : BufTy).Contents (Elt F) → (⟨S8192, .f32⟩ : BufTy).Contents (Elt F) → (⟨S8192, .f32⟩ : BufTy).Contents (Elt F)),
    unary main_v12 main_v13 (broadcastInDim S8192x1 ![0] bcast_S8192_S8192x1_0 : (⟨S8192, .f32⟩ : BufTy).Contents (Elt F) → (⟨S8192x1, .f32⟩ : BufTy).Contents (Elt F)),
    unary main_v13 main_v14 (broadcastInDim S8192x8192 ![0, 1] bcast_S8192x1_S8192x8192_0_1 : (⟨S8192x1, .f32⟩ : BufTy).Contents (Elt F) → (⟨S8192x8192, .f32⟩ : BufTy).Contents (Elt F)),
    binary main_v9 main_v14 main_v15 (subf : (⟨S8192x8192, .f32⟩ : BufTy).Contents (Elt F) → (⟨S8192x8192, .f32⟩ : BufTy).Contents (Elt F) → (⟨S8192x8192, .f32⟩ : BufTy).Contents (Elt F)),
    unary main_v15 main_v16 (Host.exp : (⟨S8192x8192, .f32⟩ : BufTy).Contents (Elt F) → (⟨S8192x8192, .f32⟩ : BufTy).Contents (Elt F)),
    nullary main_cst_2 (constant S_ .f32 0x00000000#32),
    binary main_v16 main_cst_2 main_v17 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v17 main_v18 (broadcastInDim S8192x1 ![0] bcast_S8192_S8192x1_0 : (⟨S8192, .f32⟩ : BufTy).Contents (Elt F) → (⟨S8192x1, .f32⟩ : BufTy).Contents (Elt F)),
    unary main_v18 main_v19 (broadcastInDim S8192x8192 ![0, 1] bcast_S8192x1_S8192x8192_0_1 : (⟨S8192x1, .f32⟩ : BufTy).Contents (Elt F) → (⟨S8192x8192, .f32⟩ : BufTy).Contents (Elt F)),
    binary main_v16 main_v19 main_v20 (Host.divf : (⟨S8192x8192, .f32⟩ : BufTy).Contents (Elt F) → (⟨S8192x8192, .f32⟩ : BufTy).Contents (Elt F) → (⟨S8192x8192, .f32⟩ : BufTy).Contents (Elt F)),
    binary main_v20 main_v4 main_v21 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    unary main_v21 main_v22 ((extractStridedSlice S1x1 ![8191, 0] · slices_S8192x1_S1x1_8191_0) : (⟨S8192x1, .f32⟩ : BufTy).Contents (Elt F) → (⟨S1x1, .f32⟩ : BufTy).Contents (Elt F)),
    unary main_v22 main_v23 (Host.negf : (⟨S1x1, .f32⟩ : BufTy).Contents (Elt F) → (⟨S1x1, .f32⟩ : BufTy).Contents (Elt F)),
    unary main_v23 main_v24 (Host.exp : (⟨S1x1, .f32⟩ : BufTy).Contents (Elt F) → (⟨S1x1, .f32⟩ : BufTy).Contents (Elt F)),
    nullary main_cst_3 (constant S_ .f32 0x3F800000#32),
    unary main_cst_3 main_v25 (broadcastInDim S1x1 ![] bcast_S_S1x1 : (⟨S_, .f32⟩ : BufTy).Contents (Elt F) → (⟨S1x1, .f32⟩ : BufTy).Contents (Elt F)),
    binary main_v25 main_v24 main_v26 (addf : (⟨S1x1, .f32⟩ : BufTy).Contents (Elt F) → (⟨S1x1, .f32⟩ : BufTy).Contents (Elt F) → (⟨S1x1, .f32⟩ : BufTy).Contents (Elt F)),
    nullary main_cst_4 (constant S_ .f32 0x3F800000#32),
    unary main_cst_4 main_v27 (broadcastInDim S1x1 ![] bcast_S_S1x1 : (⟨S_, .f32⟩ : BufTy).Contents (Elt F) → (⟨S1x1, .f32⟩ : BufTy).Contents (Elt F)),
    binary main_v27 main_v26 main_v28 (Host.divf : (⟨S1x1, .f32⟩ : BufTy).Contents (Elt F) → (⟨S1x1, .f32⟩ : BufTy).Contents (Elt F) → (⟨S1x1, .f32⟩ : BufTy).Contents (Elt F)) ]

-- fifty-seven binds re-associated
set_option maxRecDepth 1024 in
/-- `main` is that straight line: the two functions' bodies unfolded where they are called, both sides are one
    chain of steps once sequencing is re-associated. -/
private theorem main_eq (c : Dev nD) : main (F := F) c = seq ops := by
  simp only [main, fn_take.body, fn_where.body, seq, bind_assoc, pure_bind]

/-- The signature scopes no buffer and no semaphore. -/
private theorem scopedRefs_eq : (Finset.univ.filter fun b : Ref sig .tc => b.isScoped) = ∅ := by decide
private theorem scopedSems_eq : (Finset.univ.filter fun sm : SemLoc sig => sm.isScoped .tc) = ∅ := by decide

/-- Every operation touches the TensorCore's buffers only. -/
private theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    unary_bufs_sub .., unary_bufs_sub .., unary_bufs_sub .., unary_bufs_sub .., binary_bufs_sub .., nullary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    unary_bufs_sub .., unary_bufs_sub .., unary_bufs_sub .., nullary_bufs_sub .., unary_bufs_sub .., binary_bufs_sub ..,
    nullary_bufs_sub .., unary_bufs_sub .., binary_bufs_sub ..⟩

/-- The fold of the operations at the result buffer: each operation read at the buffer it writes is its function of
    its operands' contents, at any other buffer what was there; the contents so composed are `refTerm` of the
    arguments' (a typed buffer's transport is the identity at these buffers). -/
private theorem out_eq (V : Valuation τ sig (Elt F)) :
    after ops V (Proc.devRef .tc main_v28)
      = refTerm (V (Proc.devRef .tc main_arg0)) (V (Proc.devRef .tc main_arg1)) (V (Proc.devRef .tc main_arg2)) := by
  after_results_simp
  rfl

/-- No operation writes an argument. -/
private theorem arg0_eq (V : Valuation τ sig (Elt F)) :
    after ops V (Proc.devRef .tc main_arg0) = V (Proc.devRef .tc main_arg0) := by
  after_results_simp
private theorem arg1_eq (V : Valuation τ sig (Elt F)) :
    after ops V (Proc.devRef .tc main_arg1) = V (Proc.devRef .tc main_arg1) := by
  after_results_simp
private theorem arg2_eq (V : Valuation τ sig (Elt F)) :
    after ops V (Proc.devRef .tc main_arg2) = V (Proc.devRef .tc main_arg2) := by
  after_results_simp

end Line

/-- The run: the result buffer ends at `refTerm` of the arguments, which end as launched. -/
theorem run : θ_run defs (onTc (τ := τ) (main (F := F))) ⟨m, fun _ => 0, ρ⟩ (fun r => ∀ c : Dev nD,
      r.2.mem ((c.tc : Thread nD τ).loc main_v28)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v28).trans (out_eq _), (h c main_arg0).trans (arg0_eq _),
      (h c main_arg1).trans (arg1_eq _), (h c main_arg2).trans (arg2_eq _)⟩)
    (StableHlo.run_seq scopedRefs_eq scopedSems_eq defs main (fun _ => ops) main_eq (fun _ => ops_sub) m ρ)

end Cert.ReferenceIdeal.RefValue

end
-- ==== Proof.RefQkv.lean ====
/-
  The reference's projection read at an index: where every index word is a column of `x`, the wrap and the fill of the
  gather do nothing, and entry `(r, c)` of `x[:, idx] @ w` is `∑ j, x[r, col j] · w[j, c]`.
-/
import proofs.«417990_j30554397343922_3_alg».proof.ReferenceIdeal
import proofs.«417990_j30554397343922_3_alg».proof.Proof.Gen.ReferenceIdeal
import proofs.«417990_j30554397343922_3_alg».proof.Proof.RefTerm
import proofs.«417990_j30554397343922_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.Affine

noncomputable section

namespace Cert.ReferenceIdeal.RefValue

open Idealize.ShloMosaic Idealize.ShloMosaic.ValueIdx Cert.ReferenceIdeal
open Facts₀ Facts

variable [Facts]

/-! ## The product at an index -/

private theorem lhs_0 (r : Fin 8192) (c : Fin 3) (k : dot_S8192x2048_S2048x3_S8192x3_1_0_0_1_n_n.contr.Idx) :
    (dot_S8192x2048_S2048x3_S8192x3_1_0_0_1_n_n.lhsIdx (ix2 r c) k 0).val = r.val := rfl

private theorem lhs_1 (r : Fin 8192) (c : Fin 3) (k : dot_S8192x2048_S2048x3_S8192x3_1_0_0_1_n_n.contr.Idx) :
    (dot_S8192x2048_S2048x3_S8192x3_1_0_0_1_n_n.lhsIdx (ix2 r c) k 1).val = (k ⟨0, Nat.one_pos⟩).val := rfl

private theorem rhs_0 (r : Fin 8192) (c : Fin 3) (k : dot_S8192x2048_S2048x3_S8192x3_1_0_0_1_n_n.contr.Idx) :
    (dot_S8192x2048_S2048x3_S8192x3_1_0_0_1_n_n.rhsIdx (ix2 r c) k 0).val = (k ⟨0, Nat.one_pos⟩).val := rfl

private theorem rhs_1 (r : Fin 8192) (c : Fin 3) (k : dot_S8192x2048_S2048x3_S8192x3_1_0_0_1_n_n.contr.Idx) :
    (dot_S8192x2048_S2048x3_S8192x3_1_0_0_1_n_n.rhsIdx (ix2 r c) k 1).val = c.val := rfl

/-- Entry `(r, c)` of the product is the sum over the contracted axis. -/
private theorem dot_apply (a : FVec Ideal S8192x2048 .f32) (w : FVec Ideal S2048x3 .f32) (r : Fin 8192) (c : Fin 3) :
    Host.dotGeneral (F := Ideal) dot_S8192x2048_S2048x3_S8192x3_1_0_0_1_n_n none a w (ix2 r c)
      = ∑ j : Fin 2048, a (ix2 r j) * w (ix2 j c) := by
  simp only [Host.dotGeneral]
  rw [Ideal.dotGeneral_apply,
    ← Equiv.sum_comp (contrEquiv1 dot_S8192x2048_S2048x3_S8192x3_1_0_0_1_n_n 2048 rfl rfl).symm]
  refine Finset.sum_congr rfl fun j _ => ?_
  have hk := contrEquiv1_symm_val dot_S8192x2048_S2048x3_S8192x3_1_0_0_1_n_n 2048 rfl rfl j
  have hl : dot_S8192x2048_S2048x3_S8192x3_1_0_0_1_n_n.lhsIdx (ix2 r c)
      ((contrEquiv1 dot_S8192x2048_S2048x3_S8192x3_1_0_0_1_n_n 2048 rfl rfl).symm j) = ix2 r j := by
    funext d
    match d with
    | ⟨0, _⟩ => exact Fin.ext (lhs_0 _ _ _)
    | ⟨1, _⟩ => exact Fin.ext ((lhs_1 _ _ _).trans hk)
  have hr : dot_S8192x2048_S2048x3_S8192x3_1_0_0_1_n_n.rhsIdx (ix2 r c)
      ((contrEquiv1 dot_S8192x2048_S2048x3_S8192x3_1_0_0_1_n_n 2048 rfl rfl).symm j) = ix2 j c := by
    funext d
    match d with
    | ⟨0, _⟩ => exact Fin.ext ((rhs_0 _ _ _).trans hk)
    | ⟨1, _⟩ => exact Fin.ext (rhs_1 _ _ _)
  rw [hl, hr]

/-! ## The gather at an index -/

/-- The start-index word result entry `(r, j)` reads: row `j` of the column of start indices. -/
private theorem gather_si (r : Fin 8192) (j : Fin 2048) :
    gather_S8192x4096_S2048x1_S8192x2048_0_1_n_n_1_1_81921.siIdx (ix2 r j) ⟨0, Nat.one_pos⟩ = ix2 j (0 : Fin 1) := by
  funext b
  match b with
  | ⟨0, _⟩ => rfl
  | ⟨1, _⟩ => rfl

private theorem gather_0 (s : IVec S2048x1 32) (r : Fin 8192) (j : Fin 2048) :
    (gather_S8192x4096_S2048x1_S8192x2048_0_1_n_n_1_1_81921.operandIdx (ix2 r j) s 0).val = r.val := by
  show 0 + 0 + r.val = r.val
  omega

private theorem gather_1 (s : IVec S2048x1 32) (r : Fin 8192) (j : Fin 2048) :
    (gather_S8192x4096_S2048x1_S8192x2048_0_1_n_n_1_1_81921.operandIdx (ix2 r j) s 1).val
      = min (s (ix2 j (0 : Fin 1))).toInt.toNat 4095 := by
  rw [← gather_si r j]
  rfl

/-- Entry `(r, j)` of the gather: row `r` of `x` at the column the start index `s[j, 0]` names, read signed and clamped
    into `[0, 4095]`. -/
private theorem gather_apply (x : FVec Ideal S8192x4096 .f32) (s : IVec S2048x1 32) (r : Fin 8192) (j : Fin 2048) :
    Host.gather gather_S8192x4096_S2048x1_S8192x2048_0_1_n_n_1_1_81921 x s (ix2 r j)
      = x (ix2 r ⟨min (s (ix2 j (0 : Fin 1))).toInt.toNat 4095, by omega⟩) := by
  unfold Host.gather
  congr 1
  funext a
  match a with
  | ⟨0, _⟩ => exact Fin.ext (gather_0 s r j)
  | ⟨1, _⟩ => exact Fin.ext (gather_1 s r j)

/-! ## The wrap and the in-bounds mask -/

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- A word that is not negative is not wrapped. -/
private theorem wrap_apply (idx : IVec S2048 32) (hr : Cert.Spec.InRange idx) (p : Fin 2048) :
    select (cmpi .slt idx (broadcastInDim S2048 ![] bcast_S_S2048 (constantI S_ 32 0#32)))
      (addi idx (broadcastInDim S2048 ![] bcast_S_S2048 (constantI S_ 32 4096#32))) idx (ix1 p) = idx (ix1 p) := by
  rw [select_apply]
  have hc : cmpi .slt idx (broadcastInDim S2048 ![] bcast_S_S2048 (constantI S_ 32 0#32)) (ix1 p) = 0#1 := by
    refine eq_zero_of_ne_one fun h => ?_
    have h' : IntOp.cmpi .slt (idx (ix1 p)) 0#32 = 1#1 := h
    rw [IntOp.cmpi_slt] at h'
    have h0 : (0#32 : BitVec 32).toInt = 0 := by decide
    have := (hr p).1
    omega
  rw [hc, select_zero]

/-- A vector as a column reads, at `(p, q)`, the vector at `p`. -/
private theorem col_apply (v : IVec S2048 32) (p : Fin 2048) (q : Fin 1) :
    broadcastInDim S2048x1 ![0] bcast_S2048_S2048x1_0 v (ix2 p q) = v (ix1 p) := by
  refine broadcastInDim_apply _ _ _ _ _ (fun a => ?_)
  match a with
  | ⟨0, _⟩ => rfl

/-- A vector laid along the rows reads, at `(r, j)`, the vector at `j`. -/
private theorem row_apply (v : IVec S2048 1) (r : Fin 8192) (j : Fin 2048) :
    broadcastInDim S8192x2048 ![1] bcast_S2048_S8192x2048_1 v (ix2 r j) = v (ix1 j) := by
  refine broadcastInDim_apply _ _ _ _ _ (fun a => ?_)
  match a with
  | ⟨0, _⟩ => rfl

/-- Where every start index is in `[0, 4095]` the in-bounds mask is all ones. -/
private theorem mask_apply (s : IVec S2048x1 32) (hs : ∀ i, 0 ≤ (s i).toInt ∧ (s i).toInt ≤ 4095) (j : S2048.Idx) :
    Host.reduce IntOp.andi
      (andi (cmpi .sge s (broadcastInDim S2048x1 ![] bcast_S_S2048x1 (constantI S_ 32 0#32)))
        (cmpi .sle s (broadcastInDim S2048x1 ![0, 1] bcast_S1x1_S2048x1_0_1
          (broadcastInDim S1x1 ![1] bcast_S1_S1x1_1 (constantI S1 32 4095#32)))))
      (constantI S_ 1 1#1) reducesTo_S2048x1_S2048_d1 h_S_ j = 1#1 := by
  rw [Host.reduce_eq_foldl]
  refine foldl_andi_one _ (fun i => ?_) _
  show IntOp.andi (IntOp.cmpi .sge (s i) 0#32) (IntOp.cmpi .sle (s i) 4095#32) = 1#1
  have h0 : (0#32 : BitVec 32).toInt = 0 := by decide
  have h1 : (4095#32 : BitVec 32).toInt = 4095 := by decide
  rw [IntOp.andi_eq_one, IntOp.cmpi_sge, IntOp.cmpi_sle, h0, h1]
  exact hs i

/-! ## The gathered columns and the projection -/

/-- A word in `[0, 4096)` read signed, clamped into `[0, 4095]`, is the column it names. -/
private theorem clamp_of_inRange (a : BitVec 32) (h0 : 0 ≤ a.toInt) (h1 : a.toInt < 4096) :
    min a.toInt.toNat 4095 = a.toNat % 4096 := by
  have e : a.toInt = a.toNat := by
    have hlt := a.isLt
    rw [BitVec.toInt_eq_toNat_cond] at h0 ⊢
    split
    · rfl
    · rename_i h
      rw [if_neg h] at h0
      omega
  rw [e] at h1 ⊢
  rw [Int.toNat_natCast]
  omega

/-- Where every start index is in `[0, 4095]`, the masked gather reads `x` at the start index. -/
private theorem take_of_inb (x : FVec Ideal S8192x4096 .f32) (s : IVec S2048x1 32)
    (hs : ∀ i, 0 ≤ (s i).toInt ∧ (s i).toInt ≤ 4095) (r : Fin 8192) (j : Fin 2048) :
    select (broadcastInDim S8192x2048 ![1] bcast_S2048_S8192x2048_1
        (Host.reduce IntOp.andi
          (andi (cmpi .sge s (broadcastInDim S2048x1 ![] bcast_S_S2048x1 (constantI S_ 32 0#32)))
            (cmpi .sle s (broadcastInDim S2048x1 ![0, 1] bcast_S1x1_S2048x1_0_1
              (broadcastInDim S1x1 ![1] bcast_S1_S1x1_1 (constantI S1 32 4095#32)))))
          (constantI S_ 1 1#1) reducesTo_S2048x1_S2048_d1 h_S_))
      (Host.gather gather_S8192x4096_S2048x1_S8192x2048_0_1_n_n_1_1_81921 x s)
      (broadcastInDim S8192x2048 ![] bcast_S_S8192x2048 (constant (F := Ideal) S_ .f32 0x7FC00000#32)) (ix2 r j)
      = x (ix2 r ⟨min (s (ix2 j (0 : Fin 1))).toInt.toNat 4095, by omega⟩) := by
  rw [select_apply, row_apply, mask_apply s hs, select_one, gather_apply]

/-- The gathered columns at `(r, j)`: row `r` of `x` at the column word `j` names. -/
private theorem takeTerm_apply (x : FVec Ideal S8192x4096 .f32) (idx : IVec S2048 32)
    (hr : Cert.Spec.InRange idx) (r : Fin 8192) (j : Fin 2048) :
    takeTerm (F := Ideal) x idx (ix2 r j) = x (ix2 r (Cert.Spec.col idx j)) := by
  have hs : ∀ i : S2048x1.Idx,
      0 ≤ (broadcastInDim S2048x1 ![0] bcast_S2048_S2048x1_0
        (select (cmpi .slt idx (broadcastInDim S2048 ![] bcast_S_S2048 (constantI S_ 32 0#32)))
          (addi idx (broadcastInDim S2048 ![] bcast_S_S2048 (constantI S_ 32 4096#32))) idx) i).toInt ∧
      (broadcastInDim S2048x1 ![0] bcast_S2048_S2048x1_0
        (select (cmpi .slt idx (broadcastInDim S2048 ![] bcast_S_S2048 (constantI S_ 32 0#32)))
          (addi idx (broadcastInDim S2048 ![] bcast_S_S2048 (constantI S_ 32 4096#32))) idx) i).toInt ≤ 4095 := by
    intro i
    obtain ⟨p, q, rfl⟩ : ∃ (p : Fin 2048) (q : Fin 1), i = ix2 p q := ⟨i 0, i 1, eq_ix2 i⟩
    rw [col_apply, wrap_apply idx hr p]
    have := hr p
    omega
  refine (take_of_inb x _ hs r j).trans ?_
  refine congrArg (fun k => x (ix2 r k)) (Fin.ext ?_)
  show min (BitVec.toInt _).toNat 4095 = (idx (ix1 j)).toNat % 4096
  rw [col_apply, wrap_apply idx hr j]
  exact clamp_of_inRange _ (hr j).1 (hr j).2

/-- The projection at `(r, c)`. -/
theorem qkvTerm_apply (x : FVec Ideal S8192x4096 .f32) (idx : IVec S2048 32) (w : FVec Ideal S2048x3 .f32)
    (hr : Cert.Spec.InRange idx) (r : Fin 8192) (c : Fin 3) :
    qkvTerm (F := Ideal) x idx w (ix2 r c) = Cert.Spec.proj x idx w c r := by
  unfold qkvTerm
  rw [dot_apply]
  unfold Cert.Spec.proj
  refine Finset.sum_congr rfl fun j _ => ?_
  rw [takeTerm_apply x idx hr r j]

end Cert.ReferenceIdeal.RefValue

end
-- ==== Proof.RefAttn.lean ====
/-
  The reference's attention read at its one result index: of all 8192 query rows only the last is kept, and that row is
  the last query's logits against every key (a product over a width of one, divided by `√1`), their maximum subtracted,
  exponentials normalised by their sum, the weighted sum of the values, and `1 / (1 + e^(-·))`.
-/
import proofs.«417990_j30554397343922_3_alg».proof.ReferenceIdeal
import proofs.«417990_j30554397343922_3_alg».proof.Proof.Gen.ReferenceIdeal
import proofs.«417990_j30554397343922_3_alg».proof.Proof.RefTerm
import proofs.«417990_j30554397343922_3_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.RefValue

open Idealize.ShloMosaic Idealize.ShloMosaic.ValueIdx Cert.ReferenceIdeal
open Facts₀ Facts

variable [Facts]

/-- The word of 1.0 is the real number one. -/
private theorem ofBits_one_f32 : Ideal.ofBits .f32 0x3F800000#32 = 1 := by
  simp [Ideal.ofBits, Ideal.ieee]
  rw [← EReal.coe_mul]
  exact_mod_cast (by norm_num : (8388608 : ℝ) * (2 ^ 23)⁻¹ = 1)

/-- The word of -∞ is the bottom element. -/
private theorem ofBits_neginf_f32 : Ideal.ofBits .f32 0xFF800000#32 = ⊥ := by
  simp [Ideal.ofBits, Ideal.ieee]

/-- The square root of one is one. -/
private theorem sqrt_one' : Ideal.sqrt 1 = 1 := by
  have : (1 : EReal) = ((1 : ℝ) : EReal) := rfl
  rw [this, Ideal.sqrt_coe]
  simp

/-- A quotient by one is the dividend. -/
private theorem div_one' (a : EReal) : Ideal.div a 1 = a := by
  unfold Ideal.div
  rw [if_neg one_ne_zero, inv_one, mul_one]

/-- A fold of the float maximum is a fold of the order's maximum. -/
private theorem fold_maximumf_eq {ι : Type} (s : Finset ι) (b : EReal) (f : ι → EReal) :
    s.fold (FloatOps.maximumf (F := Ideal) (φ := .f32)) b f = s.fold max b f := rfl

/-- The column-by-row product's dimension numbers are the plain matrix product's. -/
private theorem dot1_eq : dot_S8192x1_S1x8192_S8192x8192_1_0_0_1_n_n = DotDims.plain 8192 1 8192 := rfl
/-- The matrix-by-column product's dimension numbers are the plain matrix product's. -/
private theorem dot3_eq : dot_S8192x8192_S8192x1_S8192x1_1_0_0_1_n_n = DotDims.plain 8192 8192 1 := rfl

/-- The reduction of the square matrix along its rows, as the fact that names the inserted index. -/
private theorem red_S : S8192x8192.Reduces [1] S8192 := by decide

section Pointwise
/-! The host's pointwise operations at an index: the extended reals' quotient, exponential, negation, square root. -/
variable {s : Shape} {φ : FTy}
private theorem hostDivf_apply (a b : FVec Ideal s φ) (i : s.Idx) : Host.divf a b i = Ideal.div (a i) (b i) := rfl
private theorem hostExp_apply (a : FVec Ideal s φ) (i : s.Idx) : Host.exp a i = Ideal.exp (a i) := rfl
private theorem hostNegf_apply (a : FVec Ideal s φ) (i : s.Idx) : Host.negf a i = -(a i) := rfl
private theorem hostSqrt_apply (a : FVec Ideal s φ) (i : s.Idx) : Host.sqrt a i = Ideal.sqrt (a i) := rfl
end Pointwise

/-- A scalar broadcast reads the scalar everywhere. -/
private theorem bcast_scalar_apply {t : Shape} (h : S_.BroadcastsInDim t (![] : Fin 0 → Fin t.rank)) (x : S_.Idx → EReal)
    (j : t.Idx) : broadcastInDim t ![] h x j = x ix0 :=
  broadcastInDim_apply _ h x j ix0 (fun a => a.elim0)

/-- A vector as a column reads, at row r, the vector at r. -/
private theorem bcast_col_apply (x : S8192.Idx → EReal) (r : Fin 8192) (c : Fin 1) :
    broadcastInDim S8192x1 ![0] bcast_S8192_S8192x1_0 x (ix2 r c) = x (ix1 r) :=
  broadcastInDim_apply _ _ x _ _ fun a => match a with | ⟨0, _⟩ => rfl

/-- A column along the rows of the square matrix reads, at (r, s), the column at r. -/
private theorem bcast_rows_apply (x : S8192x1.Idx → EReal) (r s : Fin 8192) :
    broadcastInDim S8192x8192 ![0, 1] bcast_S8192x1_S8192x8192_0_1 x (ix2 r s) = x (ix2 r (0 : Fin 1)) :=
  broadcastInDim_apply _ _ x _ _ fun a => match a with | ⟨0, _⟩ => rfl | ⟨1, _⟩ => rfl

/-- The index the row reduction inserts at row r and column s is (r, s). -/
private theorem lift_red (r s : Fin 8192) : red_S.lift (ix1 r) s = ix2 r s := by
  funext a; apply Fin.ext
  match a with
  | ⟨0, _⟩ => rfl
  | ⟨1, _⟩ => rfl

/-- The rows' maxima from -∞, joined with -∞ once more, read at row r: the largest entry of the row. -/
private theorem rowmax_apply (X : FVec Ideal S8192x8192 .f32) (r : Fin 8192) :
    maximumf (broadcastInDim S8192 ![] bcast_S_S8192 (constant (F := Ideal) S_ .f32 0xFF800000#32))
      (Host.reduce FloatOps.maximumf X (constant (F := Ideal) S_ .f32 0xFF800000#32) reducesTo_S8192x8192_S8192_d1 h_S_) (ix1 r)
      = (Finset.univ : Finset (Fin 8192)).fold max ⊥ (fun s => X (ix2 r s)) := by
  rw [maximumf_apply, bcast_scalar_apply, constant_apply, ofBits_neginf_f32,
    Host.reduce_eq_fold_single _ X _ reducesTo_S8192x8192_S8192_d1 red_S h_S_ (ix1 r), constant_apply, ofBits_neginf_f32,
    fold_maximumf_eq, max_bot_left]
  show (Finset.univ : Finset (Fin 8192)).fold max ⊥ (X ∘ red_S.lift (ix1 r)) = _
  congr 1
  funext s
  exact congrArg X (lift_red r s)

/-- The rows' sums from zero, read at row r. -/
private theorem rowsum_apply (P : FVec Ideal S8192x8192 .f32) (r : Fin 8192) :
    Host.reduceAdd P (constant (F := Ideal) S_ .f32 0x00000000#32) reducesTo_S8192x8192_S8192_d1 h_S_ (ix1 r)
      = ∑ s : Fin 8192, P (ix2 r s) := by
  show Ideal.hostReduceAdd reducesTo_S8192x8192_S8192_d1 P (Ideal.ofBits .f32 0x00000000#32) (ix1 r) = _
  rw [Ideal.hostReduceAdd_single _ red_S, Ideal.ofBits_zero_f32, zero_add]
  exact Finset.sum_congr rfl fun s _ => congrArg P (lift_red r s)

/-- The product of a column by a row, read at (r, s): one term. -/
private theorem dot1_apply (q : FVec Ideal S8192x1 .f32) (kT : FVec Ideal S1x8192 .f32) (r s : Fin 8192) :
    Host.dotGeneral dot_S8192x1_S1x8192_S8192x8192_1_0_0_1_n_n none q kT (ix2 r s)
      = q (ix2 r (0 : Fin 1)) * kT (ix2 (0 : Fin 1) s) := by
  rw [dot1_eq]
  exact (StackMember.dotGeneral_plain_apply none q kT r s).trans (Fin.sum_univ_one _)

/-- The product of the square matrix by a column, read at (r, c). -/
private theorem dot3_apply (A : FVec Ideal S8192x8192 .f32) (v : FVec Ideal S8192x1 .f32) (r : Fin 8192) (c : Fin 1) :
    Host.dotGeneral dot_S8192x8192_S8192x1_S8192x1_1_0_0_1_n_n none A v (ix2 r c)
      = ∑ s : Fin 8192, A (ix2 r s) * v (ix2 s c) := by
  rw [dot3_eq]
  exact StackMember.dotGeneral_plain_apply none A v r c

/-- The scaled logits at (r, s): the product of the query's and the key's entries (the scale √1 is one). -/
private theorem logits_apply (q : FVec Ideal S8192x1 .f32) (kT : FVec Ideal S1x8192 .f32) (r s : Fin 8192) :
    Host.divf (Host.dotGeneral dot_S8192x1_S1x8192_S8192x8192_1_0_0_1_n_n none q kT)
      (broadcastInDim S8192x8192 ![] bcast_S_S8192x8192 (Host.sqrt (constant (F := Ideal) S_ .f32 0x3F800000#32))) (ix2 r s)
      = q (ix2 r (0 : Fin 1)) * kT (ix2 (0 : Fin 1) s) := by
  rw [hostDivf_apply, bcast_scalar_apply, hostSqrt_apply, constant_apply, ofBits_one_f32, sqrt_one', div_one', dot1_apply]

/-- The exponential of a matrix less a per-row number, read at (r, s). -/
private theorem expw_apply (X : FVec Ideal S8192x8192 .f32) (m : FVec Ideal S8192 .f32) (r s : Fin 8192) :
    Host.exp (subf X (broadcastInDim S8192x8192 ![0, 1] bcast_S8192x1_S8192x8192_0_1
      (broadcastInDim S8192x1 ![0] bcast_S8192_S8192x1_0 m))) (ix2 r s) = Ideal.exp (X (ix2 r s) - m (ix1 r)) := by
  rw [hostExp_apply, subf_apply, bcast_rows_apply, bcast_col_apply]

/-- A matrix divided by a per-row number, read at (r, s). -/
private theorem normalise_apply (P : FVec Ideal S8192x8192 .f32) (z : FVec Ideal S8192 .f32) (r s : Fin 8192) :
    Host.divf P (broadcastInDim S8192x8192 ![0, 1] bcast_S8192x1_S8192x8192_0_1
      (broadcastInDim S8192x1 ![0] bcast_S8192_S8192x1_0 z)) (ix2 r s) = Ideal.div (P (ix2 r s)) (z (ix1 r)) := by
  rw [hostDivf_apply, bcast_rows_apply, bcast_col_apply]

/-- One over one plus the exponential of the negation, read at the one index: the logistic. -/
private theorem logistic_tail_apply (y : FVec Ideal S1x1 .f32) (i : S1x1.Idx) :
    Host.divf (broadcastInDim S1x1 ![] bcast_S_S1x1 (constant (F := Ideal) S_ .f32 0x3F800000#32))
      (addf (broadcastInDim S1x1 ![] bcast_S_S1x1 (constant (F := Ideal) S_ .f32 0x3F800000#32)) (Host.exp (Host.negf y))) i
      = Ideal.logistic (y i) := by
  rw [hostDivf_apply, addf_apply, hostExp_apply, hostNegf_apply, bcast_scalar_apply, constant_apply, ofBits_one_f32]
  rfl

/-- Column 0, 1, 2 of the projection as a column vector, read at row s. -/
private theorem col0_apply (v1 : FVec Ideal S8192x3 .f32) (s : Fin 8192) :
    extractStridedSlice S8192x1 ![0, 0] v1 slices_S8192x3_S8192x1_0_0 (ix2 s (0 : Fin 1)) = v1 (ix2 s (0 : Fin 3)) :=
  slice2_axis1_apply 0 v1 _ s 0 0 rfl
private theorem col1_apply (v1 : FVec Ideal S8192x3 .f32) (s : Fin 8192) :
    extractStridedSlice S8192x1 ![0, 1] v1 slices_S8192x3_S8192x1_0_1 (ix2 s (0 : Fin 1)) = v1 (ix2 s (1 : Fin 3)) :=
  slice2_axis1_apply 1 v1 _ s 0 1 rfl
private theorem col2_apply (v1 : FVec Ideal S8192x3 .f32) (s : Fin 8192) :
    extractStridedSlice S8192x1 ![0, 2] v1 slices_S8192x3_S8192x1_0_2 (ix2 s (0 : Fin 1)) = v1 (ix2 s (2 : Fin 3)) :=
  slice2_axis1_apply 2 v1 _ s 0 2 rfl

/-- The keys' column laid as a row, read at s. -/
private theorem keyrow_apply (k : FVec Ideal S8192x1 .f32) (s : Fin 8192) :
    transpose S1x8192 [1, 0] k transposes_S8192x1_S1x8192_1_0 (ix2 (0 : Fin 1) s) = k (ix2 s (0 : Fin 1)) :=
  transpose_ix2_apply k _ 0 s

/-- The last row of a column, as the one entry of a 1 × 1 matrix. -/
private theorem lastrow_apply (z : FVec Ideal S8192x1 .f32) :
    extractStridedSlice S1x1 ![8191, 0] z slices_S8192x1_S1x1_8191_0 (ix2 (0 : Fin 1) (0 : Fin 1)) = z (ix2 Cert.Spec.last (0 : Fin 1)) :=
  slice2_axis0_apply 8191 z _ 0 0 Cert.Spec.last rfl

/-- Row r of the exponentials of a matrix less its rows' maxima, where the row is known entry by entry. -/
private theorem weight_apply (X : FVec Ideal S8192x8192 .f32) (l : Fin 8192 → EReal) (r : Fin 8192)
    (hX : ∀ s, X (ix2 r s) = l s) (s : Fin 8192) :
    Host.exp (subf X (broadcastInDim S8192x8192 ![0, 1] bcast_S8192x1_S8192x8192_0_1
      (broadcastInDim S8192x1 ![0] bcast_S8192_S8192x1_0
        (maximumf (broadcastInDim S8192 ![] bcast_S_S8192 (constant (F := Ideal) S_ .f32 0xFF800000#32))
          (Host.reduce FloatOps.maximumf X (constant (F := Ideal) S_ .f32 0xFF800000#32) reducesTo_S8192x8192_S8192_d1 h_S_)))))
      (ix2 r s) = Ideal.exp (l s - (Finset.univ : Finset (Fin 8192)).fold max ⊥ l) := by
  rw [expw_apply, rowmax_apply, hX s]
  exact congrArg (fun f => Ideal.exp (l s - (Finset.univ : Finset (Fin 8192)).fold max ⊥ f)) (funext hX)

/-- Row r of a matrix normalised by its rows' sums, times a column: where the row is known entry by entry, the
    weighted sum of the column with the normalised row as weights. -/
private theorem row_apply (P : FVec Ideal S8192x8192 .f32) (v : FVec Ideal S8192x1 .f32) (w : Fin 8192 → EReal) (r : Fin 8192)
    (hP : ∀ s, P (ix2 r s) = w s) (c : Fin 1) :
    Host.dotGeneral dot_S8192x8192_S8192x1_S8192x1_1_0_0_1_n_n none
      (Host.divf P (broadcastInDim S8192x8192 ![0, 1] bcast_S8192x1_S8192x8192_0_1
        (broadcastInDim S8192x1 ![0] bcast_S8192_S8192x1_0
          (Host.reduceAdd P (constant (F := Ideal) S_ .f32 0x00000000#32) reducesTo_S8192x8192_S8192_d1 h_S_)))) v (ix2 r c)
      = ∑ s : Fin 8192, Ideal.div (w s) (∑ s' : Fin 8192, w s') * v (ix2 s c) := by
  rw [dot3_apply]
  refine Finset.sum_congr rfl fun s _ => ?_
  rw [normalise_apply, rowsum_apply, hP s]
  exact congrArg (fun f : Fin 8192 → EReal => Ideal.div (w s) (∑ s' : Fin 8192, f s') * v (ix2 s c)) (funext hP)

/-- The attention term at its index, of the three columns of the projection. -/
theorem attnTerm_apply (v1 : FVec Ideal S8192x3 .f32) (i : S1x1.Idx) :
    attnTerm (F := Ideal) v1 i = Cert.Spec.attn (fun s => v1 (ix2 s (0 : Fin 3))) (fun s => v1 (ix2 s (1 : Fin 3))) (fun s => v1 (ix2 s (2 : Fin 3))) := by
  obtain ⟨a, b, rfl⟩ : ∃ (a b : Fin 1), i = ix2 a b := ⟨i 0, i 1, eq_ix2 i⟩
  obtain rfl : a = 0 := Subsingleton.elim _ _
  obtain rfl : b = 0 := Subsingleton.elim _ _
  unfold attnTerm
  simp only []
  rw [logistic_tail_apply, lastrow_apply]
  unfold Cert.Spec.attn
  refine congrArg Ideal.logistic ?_
  refine (row_apply _ _ (Cert.Spec.wgt (fun s => v1 (ix2 s (0 : Fin 3))) (fun s => v1 (ix2 s (1 : Fin 3)))) Cert.Spec.last
    (fun s => ?_) 0).trans ?_
  · refine (weight_apply _ (Cert.Spec.logit (fun s => v1 (ix2 s (0 : Fin 3))) (fun s => v1 (ix2 s (1 : Fin 3)))) Cert.Spec.last
      (fun s' => ?_) s).trans rfl
    rw [logits_apply, keyrow_apply, col0_apply, col1_apply]
    rfl
  · exact Finset.sum_congr rfl fun s _ => congrArg (_ * ·) (col2_apply v1 s)

end Cert.ReferenceIdeal.RefValue

end
-- ==== Proof.KArrays.lean ====
/-
  Names, at their literal array types, for the arrays the kernel's value is stated over: the three arguments as launched,
  the first argument and the padded weights as the first launch finds them, and the array the first launch leaves.
-/
import proofs.«417990_j30554397343922_3_alg».proof.Proof.Gen.KernelIdeal.Frame
import Idealize.ShloMosaic.PureOps.Ideal

noncomputable section

namespace Cert.KernelIdeal.Arr

open Cert.KernelIdeal Cert.KernelIdeal.Gen
open Idealize.ShloMosaic Idealize.ShloMosaic.TcCoe Idealize.SL.Sem
open Facts₀ Facts

variable [Facts]
variable (m : (ℓ : Loc nD τ sig) → Buf (Elt Ideal) ℓ) (ρ : Dev nD → PrngReg)

/-- `x` as launched. -/
abbrev xarg (c : Dev nD) : FVec Ideal S8192x4096 .f32 := m ((c : Thread nD τ).loc main_arg0)
/-- The index words as launched. -/
abbrev idxarg (c : Dev nD) : IVec S2048 32 := m ((c : Thread nD τ).loc main_arg1)
/-- `w` as launched. -/
abbrev warg (c : Dev nD) : FVec Ideal S2048x3 .f32 := m ((c : Thread nD τ).loc main_arg2)
/-- `x` as the first launch finds it. -/
abbrev xin (c : Dev nD) : FVec Ideal S8192x4096 .f32 := V5 m ρ c main_arg0
/-- The padded weights as the first launch finds them. -/
abbrev wpad (c : Dev nD) : FVec Ideal S4096x8 .f32 := V5 m ρ c main_v4
/-- The array the first launch leaves (and the second reads). -/
abbrev qkvT (c : Dev nD) : FVec Ideal S8x8192 .f32 := V6 m ρ c main_v5

end Cert.KernelIdeal.Arr

end
-- ==== Proof.KHost.lean ====
/-
  What the host operations before the first launch leave: the padded weight matrix the launch reads, entry `(f, a)` for
  `a < 3` the sum of the weight rows `j` whose (clipped) index word is column `f`; and the first argument untouched.
-/
import proofs.«417990_j30554397343922_3_alg».proof.Proof.Gen.KernelIdeal.Frame
import proofs.«417990_j30554397343922_3_alg».proof.Proof.KArrays
import proofs.«417990_j30554397343922_3_alg».proof.Proof.Spec
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.StackMember

set_option maxRecDepth 16384

noncomputable section

namespace Cert.KernelIdeal.HostValue

open Cert.KernelIdeal Cert.KernelIdeal.Gen Cert.KernelIdeal.Arr
open Idealize.ShloMosaic Idealize.ShloMosaic.TcCoe Idealize.ShloMosaic.ValueIdx Idealize.SL.Sem
open Facts₀ Facts

variable [Facts]
variable (m : (ℓ : Loc nD τ sig) → Buf (Elt Ideal) ℓ) (ρ : Dev nD → PrngReg)

/-! ## Words -/

/-- A word whose signed value is in `[0, 4096)` has that value unsigned too. -/
private theorem toNat_lt_of_toInt {w : BitVec 32} (h0 : 0 ≤ w.toInt) (h1 : w.toInt < 4096) : w.toNat < 4096 := by
  have hw := w.isLt
  rw [BitVec.toInt_eq_toNat_cond] at h0 h1
  split at h0 <;> omega

/-- The clip to `[0, 4095]` leaves a word in range alone. -/
private theorem clip_word {w : BitVec 32} (h0 : 0 ≤ w.toInt) (h1 : w.toInt < 4096) :
    IntOp.minsi 4095#32 (IntOp.maxsi 0#32 w) = w := by
  have e0 : (0#32 : BitVec 32).toInt = 0 := by decide
  have e1 : (4095#32 : BitVec 32).toInt = 4095 := by decide
  have hmax : IntOp.maxsi 0#32 w = w := by
    unfold IntOp.maxsi
    exact if_neg (by simp only [BitVec.slt, e0, decide_eq_true_eq]; omega)
  rw [hmax]
  unfold IntOp.minsi
  exact if_neg (by simp only [BitVec.slt, e1, decide_eq_true_eq]; omega)

/-- A word in range is the word of `f` exactly when its value modulo 4096 is `f`. -/
private theorem word_eq_iff {w : BitVec 32} (hw : w.toNat < 4096) (f : Fin 4096) :
    w = BitVec.ofNat 32 f.val ↔ w.toNat % 4096 = f.val := by
  have hf := f.isLt
  constructor
  · intro h
    rw [h, BitVec.toNat_ofNat]
    omega
  · intro h
    apply BitVec.eq_of_toNat_eq
    rw [BitVec.toNat_ofNat]
    omega

/-- The bit of a word comparison, converted unsigned to a float, is the indicator of the equality. -/
private theorem uitofp_cmpi_eq (a b : BitVec 32) :
    (FloatOps.uitofp (F := Ideal) .f32 (IntOp.cmpi .eq a b) : EReal) = if a = b then 1 else 0 := by
  by_cases h : a = b
  · rw [if_pos h, StableHlo.Predicate.cmpi_eq_iff.mpr h]
    show (((1#1 : BitVec 1).toNat : ℝ) : EReal) = 1
    norm_num
  · rw [if_neg h]
    have hz : IntOp.cmpi .eq a b = 0#1 := by
      rcases BitVec.eq_zero_or_eq_one (IntOp.cmpi .eq a b) with e | e
      · exact e
      · exact absurd (StableHlo.Predicate.cmpi_eq_iff.mp e) h
    rw [hz]
    show (((0#1 : BitVec 1).toNat : ℝ) : EReal) = 0
    norm_num

/-! ## The operations read at an index -/

/-- The clipped index words: in range, the words themselves. -/
private theorem clip_apply (h : S_.BroadcastsInDim S2048 (![] : Fin 0 → Fin S2048.rank)) (idx : IVec S2048 32)
    (j : Fin 2048) (h0 : 0 ≤ (idx (ix1 j)).toInt) (h1 : (idx (ix1 j)).toInt < 4096) :
    minsi (broadcastInDim S2048 ![] h (constantI S_ 32 4095#32))
      (maxsi (broadcastInDim S2048 ![] h (constantI S_ 32 0#32)) idx) (ix1 j) = idx (ix1 j) :=
  clip_word h0 h1

/-- The one-hot matrix at `(j, f)`: whether word `j` is the word of `f`. -/
private theorem onehot_apply (h₁ : S2048.BroadcastsInDim S2048x1 ![0]) (h₂ : S2048x1.BroadcastsInDim S2048x4096 ![0, 1])
    (h₃ : S1x4096.BroadcastsInDim S2048x4096 ![0, 1]) (v : IVec S2048 32) (j : Fin 2048) (f : Fin 4096) :
    (uitofp (F := Ideal) .f32 (cmpi .eq (broadcastInDim S2048x4096 ![0, 1] h₂ (broadcastInDim S2048x1 ![0] h₁ v))
        (broadcastInDim S2048x4096 ![0, 1] h₃ (iotaInDim S1x4096 32 1))) : FVec Ideal S2048x4096 .f32) (ix2 j f)
      = if v (ix1 j) = BitVec.ofNat 32 f.val then 1 else 0 := by
  have e1 : broadcastInDim S2048x4096 ![0, 1] h₂ (broadcastInDim S2048x1 ![0] h₁ v) (ix2 j f) = v (ix1 j) := by
    rw [broadcastInDim_apply ![0, 1] h₂ _ (ix2 j f) (ix2 j (0 : Fin 1)) (fun a => by match a with | ⟨0, _⟩ => rfl | ⟨1, _⟩ => rfl)]
    exact broadcastInDim_apply ![0] h₁ v (ix2 j (0 : Fin 1)) (ix1 j) (fun a => by match a with | ⟨0, _⟩ => rfl)
  have e2 : broadcastInDim S2048x4096 ![0, 1] h₃ (iotaInDim S1x4096 32 1) (ix2 j f) = BitVec.ofNat 32 f.val := by
    rw [broadcastInDim_apply ![0, 1] h₃ _ (ix2 j f) (ix2 (0 : Fin 1) f) (fun a => by match a with | ⟨0, _⟩ => rfl | ⟨1, _⟩ => rfl)]
    rfl
  show FloatOps.uitofp (F := Ideal) .f32 (IntOp.cmpi .eq _ _) = _
  rw [e1, e2]
  exact uitofp_cmpi_eq _ _

/-- The transposed matrix at `(f, j)` is the matrix at `(j, f)`. -/
private theorem transposed_apply (h : S2048x4096.Transposes [1, 0] S4096x2048) (A : FVec Ideal S2048x4096 .f32)
    (f : Fin 4096) (j : Fin 2048) : transpose S4096x2048 [1, 0] A h (ix2 f j) = A (ix2 j f) :=
  transpose_apply [1, 0] A h (ix2 f j) (ix2 j f) (fun b => by match b with | ⟨0, _⟩ => rfl | ⟨1, _⟩ => rfl)

/-- The product at `(f, a)`: the sum over the contracted axis. -/
private theorem dot_apply (L : FVec Ideal S4096x2048 .f32) (R : FVec Ideal S2048x3 .f32) (f : Fin 4096) (a : Fin 3) :
    Host.dotGeneral (F := Ideal) dot_S4096x2048_S2048x3_S4096x3_1_0_0_1_n_n none L R (ix2 f a)
      = ∑ j : Fin 2048, L (ix2 f j) * R (ix2 j a) := by
  have e : dot_S4096x2048_S2048x3_S4096x3_1_0_0_1_n_n = DotDims.plain 4096 2048 3 := rfl
  rw [e]
  exact StackMember.dotGeneral_plain_apply none L R f a

/-- The padded matrix at `(f, a)`, `a < 3`, is the matrix there. -/
private theorem padded_apply (h : S4096x3.Pads (![0, 0] : Fin 2 → Nat) ![0, 5] ![0, 0] S4096x8) (hu : 0 < S_.numel)
    (P : FVec Ideal S4096x3 .f32) (z : FVec Ideal S_ .f32) (f : Fin 4096) (a : Fin 3) :
    pad S4096x8 ![0, 0] ![0, 5] ![0, 0] P z h hu (ix2 f (Fin.castLE (by decide : 3 ≤ 8) a)) = P (ix2 f a) :=
  pad_apply_of_inside _ _ _ P z h hu _ (ix2 f a) (fun b => by
    match b with
    | ⟨0, _⟩ => show f.val = 0 + f.val * (0 + 1); omega
    | ⟨1, _⟩ => show a.val = 0 + a.val * (0 + 1); omega)

/-! ## The buffers -/

/-- The padded weights as the composed host operations over the launched index words and weights. -/
private theorem wpad_term (c : Dev nD) :
    (wpad m ρ c : FVec Ideal S4096x8 .f32) =
      pad S4096x8 ![0, 0] ![0, 5] ![0, 0]
        (Host.dotGeneral (F := Ideal) dot_S4096x2048_S2048x3_S4096x3_1_0_0_1_n_n none
          (transpose S4096x2048 [1, 0]
            (uitofp (F := Ideal) .f32
              (cmpi .eq
                (broadcastInDim S2048x4096 ![0, 1] Gen.bcast_S2048x1_S2048x4096_0_1
                  (broadcastInDim S2048x1 ![0] Gen.bcast_S2048_S2048x1_0
                    (minsi (broadcastInDim S2048 ![] Gen.bcast_S_S2048 (constantI S_ 32 4095#32))
                      (maxsi (broadcastInDim S2048 ![] Gen.bcast_S_S2048 (constantI S_ 32 0#32)) (idxarg m c)))))
                (broadcastInDim S2048x4096 ![0, 1] Gen.bcast_S1x4096_S2048x4096_0_1 (iotaInDim S1x4096 32 1))))
            Gen.transposes_S2048x4096_S4096x2048_1_0)
          (warg m c))
        (sitofp (F := Ideal) .f32 (constantI S_ 32 0#32)) Gen.pads_S4096x3_S4096x8_000_050 Gen.h_S_ := by
  show StableHlo.after hostOps0_4 (W4 m ρ c) (Proc.devRef .tc main_v4) = _
  after_results
  rfl

/-- The padded weights at `(f, a)`, `a < 3`: the indicator-weighted sum of the weight rows. -/
theorem wpad_apply (c : Dev nD) (hr : Cert.Spec.InRange (idxarg m c)) (f : Fin 4096) (a : Fin 3) :
    wpad m ρ c (ix2 f (Fin.castLE (by decide : 3 ≤ 8) a))
      = ∑ j : Fin 2048, (if Cert.Spec.col (idxarg m c) j = f then (1 : EReal) else 0) * warg m c (ix2 j a) := by
  rw [wpad_term m ρ c, padded_apply, dot_apply]
  refine Finset.sum_congr rfl fun j _ => ?_
  rw [transposed_apply, onehot_apply, clip_apply _ _ j (hr j).1 (hr j).2]
  refine congrArg (· * warg m c (ix2 j a)) (if_congr ?_ rfl rfl)
  rw [word_eq_iff (toNat_lt_of_toInt (hr j).1 (hr j).2) f]
  exact (Fin.ext_iff (a := Cert.Spec.col (idxarg m c) j) (b := f)).symm

/-- No host operation writes the first argument. -/
theorem xin_eq (c : Dev nD) : xin m ρ c = xarg m c :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps0_4, List.Forall, StableHlo.nullary_writes, StableHlo.unary_writes, StableHlo.binary_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.Forall, StableHlo.nullary_writes, StableHlo.unary_writes, StableHlo.binary_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

end Cert.KernelIdeal.HostValue

end
-- ==== Proof.KRegion0.lean ====
/-
  The first launch's output array: entry `(a, r)` is the product of column `a` of the padded weights with row `r` of `x`,
  summed over the 4096 features — each of the eight grid points writes the 1024 columns of its row tile.
-/
import proofs.«417990_j30554397343922_3_alg».proof.Proof.Gen.KernelIdeal.Frame
import proofs.«417990_j30554397343922_3_alg».proof.Proof.KArrays
import proofs.«417990_j30554397343922_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StackMember
import Idealize.ShloMosaic.PureOps.Ideal.Laws

set_option maxRecDepth 16384

noncomputable section

namespace Cert.KernelIdeal.Region0

open Cert.KernelIdeal Cert.KernelIdeal.Gen Cert.KernelIdeal.Arr
open Idealize.ShloMosaic Idealize.ShloMosaic.TcCoe Idealize.ShloMosaic.ValueIdx Idealize.SL.Sem
open Facts₀ Facts

/-- The block indices, decided over the eight points: point `t` takes row tile `t` of `x`, all of the weights, and
    writes column tile `t` of the output. -/
private theorem tile_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = t.val :=
  (by decide +kernel : ∀ t : Fin grid0.N, _)

variable [Facts]
variable (m : (ℓ : Loc nD τ sig) → Buf (Elt Ideal) ℓ) (ρ : Dev nD → PrngReg)

/-! ## The block product at an index -/

/-- A product record of an N × K by a K × M matrix whose lists are those of the plain product (axis 1 of the left
    contracted with axis 0 of the right, no batch axis) is the plain product's record. -/
private theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- The contraction's sum at (n, j) is the sum over κ of l (n, κ) · r (κ, j). -/
private theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- The body's value at `(a, y)`: column `a` of the weights' block against row `y` of `x`'s block, summed over the features. -/
private theorem product_apply (w : FVec Ideal S4096x8 .f32) (x : FVec Ideal S1024x4096 .f32) (a : Fin 8) (y : Fin 1024) :
    k0_pay1 (F := Ideal) w x (ix2 a y) = ∑ f : Fin 4096, w (ix2 f a) * x (ix2 y f) := by
  unfold k0_pay1
  refine (Ideal.matmul_constant_zero_apply _ _ _ _ _).trans ?_
  refine (contr_sum_rows dot_S8x4096_S4096x1024_S8x1024_1_0_0_1_n_n rfl rfl rfl rfl rfl rfl _ _ a y).trans ?_
  refine Finset.sum_congr rfl fun f _ => ?_
  rw [transpose_ix2_apply, transpose_ix2_apply, shapeCast_self]

/-! ## The blocks each point reads -/

/-- Zero offsets, as the body's accesses spell them. -/
private theorem off_zero : (![0, 0] : Fin 2 → Nat) = fun _ => 0 := funext fun a => by fin_cases a <;> rfl

/-- The weights' block at any point is the whole padded array. -/
private theorem wblock_apply (c : Dev nD) (t : Fin cfg0.N) (f : Fin 4096) (a : Fin 8) :
    (iblk0 (V5 m ρ) c 1 t : FVec Ideal S4096x8 .f32) (ix2 f a) = wpad m ρ c (ix2 f a) := by
  obtain ⟨-, -, e2, e3, -, -⟩ := tile_facts t
  unfold iblk0
  rw [View.read_apply]
  show V5 m ρ c main_v4 _ = V5 m ρ c main_v4 _
  congr 1
  funext ax
  apply Fin.ext
  match ax with
  | ⟨0, _⟩ => show win0_1.index t (0 : Fin 2) * 4096 + 1 * f.val = f.val; omega
  | ⟨1, _⟩ => show win0_1.index t (1 : Fin 2) * 8 + 1 * a.val = a.val; omega

/-- `x`'s block at point `t` is rows `1024 t … 1024 t + 1023` of `x`. -/
private theorem xblock_apply (c : Dev nD) (t : Fin cfg0.N) (y : Fin 1024) (f : Fin 4096) (r : Fin 8192)
    (hr : r.val = 1024 * t.val + y.val) :
    (iblk0 (V5 m ρ) c 0 t : FVec Ideal S1024x4096 .f32) (ix2 y f) = xin m ρ c (ix2 r f) := by
  obtain ⟨e0, e1, -, -, -, -⟩ := tile_facts t
  unfold iblk0
  rw [View.read_apply]
  show V5 m ρ c main_arg0 _ = V5 m ρ c main_arg0 _
  congr 1
  funext ax
  apply Fin.ext
  match ax with
  | ⟨0, _⟩ => show win0_0.index t (0 : Fin 2) * 1024 + 1 * y.val = r.val; omega
  | ⟨1, _⟩ => show win0_0.index t (1 : Fin 2) * 4096 + 1 * f.val = f.val; omega

/-! ## From the blocks to the array -/

/-- What the output array ends holding: at `(a, r)`, column `a` of the weights against row `r` of `x`. -/
private abbrev denseProd (c : Dev nD) : FVec Ideal S8x8192 .f32 :=
  fun i => ∑ f : Fin 4096, wpad m ρ c (ix2 f (i 0)) * xin m ρ c (ix2 (i 1) f)

/-- The body's result at point `t`, read at `(a, y)`, is `denseProd` at `(a, 1024 t + y)`. -/
private theorem body_apply (c : Dev nD) (t : Fin cfg0.N) (a : Fin 8) (y : Fin 1024) (r : Fin 8192)
    (hr : r.val = 1024 * t.val + y.val) :
    k0_pay1 (F := Ideal) (iblk0 (V5 m ρ) c 1 t) (iblk0 (V5 m ρ) c 0 t) (ix2 a y) = denseProd m ρ c (ix2 a r) := by
  refine (product_apply (iblk0 (V5 m ρ) c 1 t) (iblk0 (V5 m ρ) c 0 t) a y).trans ?_
  refine Finset.sum_congr rfl fun f _ => ?_
  rw [wblock_apply m ρ c t f a, xblock_apply m ρ c t y f r hr]

/-- The body's result at point `t` is `denseProd` read where the output's block `t` lies: rows `0 … 7`, columns
    `1024 t … 1024 t + 1023`. -/
private theorem body_eq_block (c : Dev nD) (t : Fin cfg0.N) (j : S8x1024.Idx) :
    k0_pay1 (F := Ideal) (iblk0 (V5 m ρ) c 1 t) (iblk0 (V5 m ρ) c 0 t) j
      = denseProd m ρ c (((cfg0.win 2).blk t).view.emb j) := by
  obtain ⟨-, -, -, -, e4, e5⟩ := tile_facts t
  have hN : cfg0.N = 8 := N_0
  have ht : t.val < cfg0.N := t.isLt
  obtain ⟨a, y, rfl⟩ : ∃ (a : Fin 8) (y : Fin 1024), j = ix2 a y := ⟨j 0, j 1, eq_ix2 j⟩
  refine (body_apply m ρ c t a y ⟨1024 * t.val + y.val, by omega⟩ rfl).trans ?_
  refine congrArg (denseProd m ρ c) (funext fun ax => Fin.ext ?_)
  match ax with
  | ⟨0, _⟩ => show a.val = win0_2.index t (0 : Fin 2) * 8 + 1 * a.val; omega
  | ⟨1, _⟩ => show 1024 * t.val + y.val = win0_2.index t (1 : Fin 2) * 1024 + 1 * y.val; omega

/-- What point `t` writes back is block `t` of `denseProd`. -/
private theorem flushed_eq (c : Dev nD) (t : Fin cfg0.N) :
    (dat0 (V5 m ρ) c).flushed 2 t = ((cfg0.win 2).blk t).view.read (Elt Ideal) (denseProd m ρ c) := by
  show (cfg0.win 2).cut (grid0.coords t) ((dat0 (V5 m ρ) c).after 2 t) = _
  rw [after0_2]
  unfold out0_2
  rw [View.canon_unit_zero off_zero]
  simp only [View.ld_unit_zero (S := S4096x8) off_zero, View.ld_unit_zero (S := S1024x4096) off_zero]
  funext j
  exact body_eq_block m ρ c t j

/-- An index of the output array is in point `t`'s block iff each coordinate is in the block's range on its axis. -/
private theorem mem_block (t : Fin cfg0.N) (i : S8x8192.Idx) :
    i ∈ ((cfg0.win 2).blk t).view.set ↔ ∀ a : Fin 2, win0_2.index t a * S8x1024.size a ≤ (i a).val
      ∧ (i a).val < win0_2.index t a * S8x1024.size a + S8x1024.size a := by
  show i ∈ ((View.whole main_v5).slice (win0_2.rect t)).set ↔ _
  rw [View.set_slice_whole, Rect.mem_set_unit]
  exact Iff.rfl

/-- The eight blocks tile the columns: column `r` lies in the block of point `r / 1024`. -/
private theorem covered (i : S8x8192.Idx) :
    ∃ t : Fin cfg0.N, (cfg0.win 2).flush t = true ∧ i ∈ ((cfg0.win 2).blk t).view.set := by
  have hN : cfg0.N = 8 := N_0
  have h0 : (i 0).val < 8 := (i 0).isLt
  have h1 : (i 1).val < 8192 := (i 1).isLt
  obtain ⟨t, ht⟩ : ∃ t : Fin cfg0.N, t.val = (i 1).val / 1024 := ⟨⟨(i 1).val / 1024, by omega⟩, rfl⟩
  obtain ⟨-, -, -, -, e4, e5⟩ := tile_facts t
  refine ⟨t, flush0_2 t, ?_⟩
  rw [mem_block]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 1024 ≤ (i 1).val ∧ (i 1).val < win0_2.index t (1 : Fin 2) * 1024 + 1024
    omega

/-- The output array after the launch is `denseProd`. -/
private theorem array_eq (c : Dev nD) : (dat0 (V5 m ρ) c).arrAt 2 cfg0.N = denseProd m ρ c :=
  (dat0 (V5 m ρ) c).arrAt_eq_of_cover 2 (denseProd m ρ c) (fun t _ => flushed_eq m ρ c t) covered

/-- The array the first launch leaves, read at `(a, r)`. -/
theorem qkvT_apply (c : Dev nD) (a : Fin 8) (r : Fin 8192) :
    qkvT m ρ c (ix2 a r) = ∑ f : Fin 4096, wpad m ρ c (ix2 f a) * xin m ρ c (ix2 r f) := by
  have h : qkvT m ρ c = denseProd m ρ c := (W6_arr m ρ c 2).trans (array_eq m ρ c)
  exact congrFun h (ix2 a r)

end Cert.KernelIdeal.Region0

end
-- ==== Proof.KRegion1.lean ====
/-
  The second launch's result: the attention of the last query, through the logistic, of rows 0, 1, 2 of the array it reads.

  The launch has one grid point whose blocks are the whole arrays. Its body loads rows 0, 1, 2 (queries, keys, values along
  the lanes), multiplies the keys by the last query, subtracts the row's maximum, exponentiates, divides by the row's sum,
  weights the values, sums, and applies `1 / (1 + e^(-·))`. Read at the result's one index, each lane reduction is a fold
  or a sum over the 8192 lanes, each spread-back one-by-one value is itself, and the result array, written once and whole,
  is that value.
-/
import proofs.«417990_j30554397343922_3_alg».proof.Proof.Gen.KernelIdeal.Frame
import proofs.«417990_j30554397343922_3_alg».proof.Proof.KArrays
import proofs.«417990_j30554397343922_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Region1

open Cert.KernelIdeal Cert.KernelIdeal.Gen Cert.KernelIdeal.Arr
open Idealize.ShloMosaic Idealize.ShloMosaic.TcCoe Idealize.ShloMosaic.ValueIdx Idealize.SL.Sem
open Facts₀ Facts

variable [Facts]
variable (m : (ℓ : Loc nD τ sig) → Buf (Elt Ideal) ℓ) (ρ : Dev nD → PrngReg)

/-- The zero offset of a whole-block access. -/
theorem hz : (![0, 0] : Fin 2 → Nat) = fun _ => 0 := funext fun a => by fin_cases a <;> rfl

/-- A one-by-one array has one index. -/
theorem idx11 (i : S1x1.Idx) : i = ix2 (0 : Fin 1) (0 : Fin 1) := by
  obtain ⟨p, q, rfl⟩ : ∃ (p q : Fin 1), i = ix2 p q := ⟨i 0, i 1, eq_ix2 i⟩
  rw [Subsingleton.elim p 0, Subsingleton.elim q 0]

/-- A one-by-one value spread along the row reads that value everywhere. -/
theorem bcast_row (u : FVec Ideal S1x1 .f32) (s : Fin 8192) :
    broadcastTo S1x8192 u Gen.broadcasts_S1x1_S1x8192 (ix2 (0 : Fin 1) s) = u (ix2 (0 : Fin 1) (0 : Fin 1)) :=
  broadcastTo_apply u _ _ _ (fun a => by match a with | ⟨0, _⟩ => rfl | ⟨1, _⟩ => rfl)

/-- The row's last entry, sliced out. -/
theorem slice_last (q : FVec Ideal S1x8192 .f32) :
    extractStridedSlice S1x1 ![0, 8191] q Gen.slices_S1x8192_o0_8191_S1x1 (ix2 (0 : Fin 1) (0 : Fin 1)) = q (ix2 (0 : Fin 1) Cert.Spec.last) :=
  extractStridedSlice_apply _ q _ _ _ (fun a => by match a with | ⟨0, _⟩ => rfl | ⟨1, _⟩ => rfl)

/-- A one-entry vector as a one-by-one array. -/
theorem cast11 (x : FVec Ideal S1 .f32) : shapeCast S1x1 x Gen.shapeCasts_S1_S1x1 (ix2 (0 : Fin 1) (0 : Fin 1)) = x (ix1 (0 : Fin 1)) :=
  shapeCast_a_1a_apply x _ 0 0

/-- A row summed along its lanes. -/
theorem sum_row (src : FVec Ideal S1x8192 .f32) (hφ : FKind.Formats .f32) (hacc : (0x00000000#32 : BitVec 32) = FKind.add.neutral .f32 hφ) :
    multiReduction .add [1] S1 src 0x00000000#32 Gen.reduces_S1x8192_S1 hφ hacc (ix1 (0 : Fin 1)) = ∑ s : Fin 8192, src (ix2 (0 : Fin 1) s) := by
  refine (Ideal.multiReduction_add_single src 0x00000000#32 Gen.reduces_S1x8192_S1 hφ hacc (ix1 (0 : Fin 1))).trans ?_
  refine Finset.sum_congr rfl fun s _ => congrArg src ?_
  funext a; match a with | ⟨0, _⟩ => rfl | ⟨1, _⟩ => rfl

/-- The word of `-∞` is the bottom element. -/
theorem ofBits_neg_inf : Ideal.ofBits .f32 0xFF800000#32 = ⊥ := by simp [Ideal.ofBits, Ideal.ieee]

/-- A row's maximum along its lanes, from `-∞`. -/
theorem max_row (src : FVec Ideal S1x8192 .f32) (hφ : FKind.Formats .f32) (hacc : (0xFF800000#32 : BitVec 32) = FKind.maximumf.neutral .f32 hφ) :
    multiReduction .maximumf [1] S1 src 0xFF800000#32 Gen.reduces_S1x8192_S1 hφ hacc (ix1 (0 : Fin 1))
      = (Finset.univ : Finset (Fin 8192)).fold max ⊥ (fun s => src (ix2 (0 : Fin 1) s)) := by
  refine (Ideal.multiReduction_maximumf_single src 0xFF800000#32 Gen.reduces_S1x8192_S1 hφ hacc (ix1 (0 : Fin 1))).trans ?_
  rw [show FloatOps.ofBits (F := Ideal) .f32 0xFF800000#32 = ⊥ from ofBits_neg_inf]
  refine congrArg (fun g => (Finset.univ : Finset (Fin 8192)).fold max ⊥ g) ?_
  funext s
  refine congrArg src ?_
  funext a; match a with | ⟨0, _⟩ => rfl | ⟨1, _⟩ => rfl

section Tail
variable (Lg v : FVec Ideal S1x8192 .f32) (hφ : FKind.Formats .f32)
  (hm : (0xFF800000#32 : BitVec 32) = FKind.maximumf.neutral .f32 hφ) (ha : (0x00000000#32 : BitVec 32) = FKind.add.neutral .f32 hφ)

/-- The row's maximum spread back along the row. -/
abbrev mxv : FVec Ideal S1x8192 .f32 :=
  broadcastTo S1x8192 (shapeCast S1x1 (multiReduction .maximumf [1] S1 Lg 0xFF800000#32 Gen.reduces_S1x8192_S1 hφ hm) Gen.shapeCasts_S1_S1x1) Gen.broadcasts_S1x1_S1x8192
/-- The exponentials of the row less its maximum. -/
abbrev pv : FVec Ideal S1x8192 .f32 := exp (subf Lg (mxv Lg hφ hm))
/-- Their sum spread back along the row. -/
abbrev sv : FVec Ideal S1x8192 .f32 :=
  broadcastTo S1x8192 (shapeCast S1x1 (multiReduction .add [1] S1 (pv Lg hφ hm) 0x00000000#32 Gen.reduces_S1x8192_S1 hφ ha) Gen.shapeCasts_S1_S1x1) Gen.broadcasts_S1x1_S1x8192

/-- The row's maximum as a fold. -/
abbrev pk : EReal := (Finset.univ : Finset (Fin 8192)).fold max ⊥ (fun s => Lg (ix2 (0 : Fin 1) s))

theorem mxv_apply (s : Fin 8192) : mxv Lg hφ hm (ix2 (0 : Fin 1) s) = pk Lg :=
  (bcast_row _ s).trans ((cast11 _).trans (max_row Lg hφ hm))

theorem pv_apply (s : Fin 8192) : pv Lg hφ hm (ix2 (0 : Fin 1) s) = Ideal.exp (Lg (ix2 (0 : Fin 1) s) - pk Lg) := by
  show Ideal.exp (Lg (ix2 (0 : Fin 1) s) - mxv Lg hφ hm (ix2 (0 : Fin 1) s)) = _
  rw [mxv_apply]

theorem sv_apply (s : Fin 8192) : sv Lg hφ hm ha (ix2 (0 : Fin 1) s) = ∑ s' : Fin 8192, Ideal.exp (Lg (ix2 (0 : Fin 1) s') - pk Lg) :=
  (bcast_row _ s).trans ((cast11 _).trans ((sum_row _ hφ ha).trans (Finset.sum_congr rfl fun s' _ => pv_apply Lg hφ hm s')))

/-- From the logits row on: normalised exponentials weighting `v`, summed, through the logistic. -/
theorem tail (i : S1x1.Idx) :
    logistic (shapeCast S1x1 (multiReduction .add [1] S1 (mulf (divf (pv Lg hφ hm) (sv Lg hφ hm ha)) v) 0x00000000#32 Gen.reduces_S1x8192_S1 hφ ha) Gen.shapeCasts_S1_S1x1) i
      = Ideal.logistic (∑ s : Fin 8192, Ideal.div (Ideal.exp (Lg (ix2 (0 : Fin 1) s) - pk Lg)) (∑ s' : Fin 8192, Ideal.exp (Lg (ix2 (0 : Fin 1) s') - pk Lg)) * v (ix2 (0 : Fin 1) s)) := by
  rw [idx11 i]
  show Ideal.logistic _ = _
  refine congrArg Ideal.logistic ?_
  refine (cast11 _).trans ((sum_row _ hφ ha).trans (Finset.sum_congr rfl fun s _ => ?_))
  show Ideal.div (pv Lg hφ hm (ix2 (0 : Fin 1) s)) (sv Lg hφ hm ha (ix2 (0 : Fin 1) s)) * v (ix2 (0 : Fin 1) s) = _
  rw [pv_apply, sv_apply]

end Tail

/-- The body's result of three rows: the attention of the last entry of the first row against the second, weighting the third. -/
theorem pay_rows (q k v : FVec Ideal S1x8192 .f32) (i : S1x1.Idx) :
    k1_pay1 (F := Ideal) q k v i
      = Cert.Spec.attn (fun s => q (ix2 (0 : Fin 1) s)) (fun s => k (ix2 (0 : Fin 1) s)) (fun s => v (ix2 (0 : Fin 1) s)) := by
  unfold k1_pay1
  simp only [shapeCast_self]
  have hl : ∀ s : Fin 8192, mulf (broadcastTo S1x8192 (extractStridedSlice S1x1 ![0, 8191] q Gen.slices_S1x8192_o0_8191_S1x1) Gen.broadcasts_S1x1_S1x8192) k (ix2 (0 : Fin 1) s)
      = Cert.Spec.logit (fun s => q (ix2 (0 : Fin 1) s)) (fun s => k (ix2 (0 : Fin 1) s)) s := fun s => by
    rw [mulf_apply, bcast_row, slice_last]; rfl
  have hpk : pk (mulf (broadcastTo S1x8192 (extractStridedSlice S1x1 ![0, 8191] q Gen.slices_S1x8192_o0_8191_S1x1) Gen.broadcasts_S1x1_S1x8192) k)
      = (Finset.univ : Finset (Fin 8192)).fold max ⊥ (Cert.Spec.logit (fun s => q (ix2 (0 : Fin 1) s)) (fun s => k (ix2 (0 : Fin 1) s))) :=
    congrArg (fun g => (Finset.univ : Finset (Fin 8192)).fold max ⊥ g) (funext hl)
  refine (tail _ v _ _ _ i).trans ?_
  unfold Cert.Spec.attn Cert.Spec.wgt Cert.Spec.peak
  simp only [hl, hpk]

/-- Row 0 of the array, read through its row rectangle. -/
theorem ld_row0 (X : Vec Ideal S8x8192 .f32) (s : Fin 8192) : View.ld X r1_0 (ix2 (0 : Fin 1) s) = X (ix2 (0 : Fin 8) s) :=
  congrArg X (funext fun a => Fin.ext (by
    match a with
    | ⟨0, _⟩ => show 0 + 1 * 0 = 0; rfl
    | ⟨1, _⟩ => show 0 + 1 * s.val = s.val; omega))
/-- Row 1. -/
theorem ld_row1 (X : Vec Ideal S8x8192 .f32) (s : Fin 8192) : View.ld X r1_1 (ix2 (0 : Fin 1) s) = X (ix2 (1 : Fin 8) s) :=
  congrArg X (funext fun a => Fin.ext (by
    match a with
    | ⟨0, _⟩ => show 1 + 1 * 0 = 1; rfl
    | ⟨1, _⟩ => show 0 + 1 * s.val = s.val; omega))
/-- Row 2. -/
theorem ld_row2 (X : Vec Ideal S8x8192 .f32) (s : Fin 8192) : View.ld X r1_2 (ix2 (0 : Fin 1) s) = X (ix2 (2 : Fin 8) s) :=
  congrArg X (funext fun a => Fin.ext (by
    match a with
    | ⟨0, _⟩ => show 2 + 1 * 0 = 2; rfl
    | ⟨1, _⟩ => show 0 + 1 * s.val = s.val; omega))

/-- What the body leaves in the result's buffer, of the array it reads. -/
theorem out_apply (X : Vec Ideal S8x8192 .f32) (i : S1x1.Idx) :
    out1_1 (F := Ideal) X i
      = Cert.Spec.attn (fun s => X (ix2 (0 : Fin 8) s)) (fun s => X (ix2 (1 : Fin 8) s)) (fun s => X (ix2 (2 : Fin 8) s)) := by
  unfold out1_1
  rw [View.canon_unit_zero hz]
  refine (pay_rows _ _ _ i).trans ?_
  exact congr (congr (congrArg Cert.Spec.attn (funext (ld_row0 X))) (funext (ld_row1 X))) (funext (ld_row2 X))

/-- The one grid point's blocks are the whole arrays. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The input block at the point is the array the launch finds. -/
theorem blk_apply (c : Dev nD) (t : Fin cfg1.N) (a : Fin 8) (s : Fin 8192) :
    iblk1 (V6 m ρ) c 0 t (ix2 a s) = qkvT m ρ c (ix2 a s) := by
  obtain ⟨e0, e1, -, -⟩ := idx_facts t
  show V6 m ρ c main_v5 (((cfg1.win 0).blk t).view.emb (ix2 a s)) = V6 m ρ c main_v5 (ix2 a s)
  refine congrArg (V6 m ρ c main_v5) (funext fun b => Fin.ext ?_)
  match b with
  | ⟨0, _⟩ => show win1_0.index t (0 : Fin 2) * 8 + 1 * a.val = a.val; omega
  | ⟨1, _⟩ => show win1_0.index t (1 : Fin 2) * 8192 + 1 * s.val = s.val; omega

/-- What the point writes back is the block of the constant array holding the attention. -/
theorem flushed_eq (c : Dev nD) (t : Fin cfg1.N) :
    (dat1 (V6 m ρ) c).flushed 1 t = ((cfg1.win 1).blk t).view.read (Elt Ideal) (fun _ => Cert.Spec.attn
      (fun s => qkvT m ρ c (ix2 (0 : Fin 8) s)) (fun s => qkvT m ρ c (ix2 (1 : Fin 8) s)) (fun s => qkvT m ρ c (ix2 (2 : Fin 8) s))) := by
  show (cfg1.win 1).cut (grid1.coords t) ((dat1 (V6 m ρ) c).after 1 t) = _
  rw [after1_1]
  funext j
  refine (out_apply (iblk1 (V6 m ρ) c 0 t) j).trans ?_
  simp only [blk_apply]
  rfl

/-- An index of the result array is in the point's block iff each coordinate is in the block's range. -/
theorem mem_blk (t : Fin cfg1.N) (i : S1x1.Idx) :
    i ∈ ((cfg1.win 1).blk t).view.set ↔ ∀ a : Fin 2, win1_1.index t a * S1x1.size a ≤ (i a).val ∧ (i a).val < win1_1.index t a * S1x1.size a + S1x1.size a := by
  show i ∈ ((View.whole main_v6).slice (win1_1.rect t)).set ↔ _
  rw [View.set_slice_whole, Rect.mem_set_unit]
  exact Iff.rfl

/-- The result buffer after the second launch. -/
theorem out_eq (c : Dev nD) :
    W7 m ρ c (Proc.devRef .tc main_v6) = fun _ => Cert.Spec.attn
      (fun s => qkvT m ρ c (ix2 (0 : Fin 8) s)) (fun s => qkvT m ρ c (ix2 (1 : Fin 8) s)) (fun s => qkvT m ρ c (ix2 (2 : Fin 8) s)) := by
  refine (W7_arr m ρ c 1).trans ?_
  refine (dat1 (V6 m ρ) c).arrAt_eq_of_cover 1 _ (fun t _ => flushed_eq m ρ c t) (fun i => ⟨t1_0, flush1_1 t1_0, ?_⟩)
  obtain ⟨-, -, e2, e3⟩ := idx_facts t1_0
  refine (mem_blk t1_0 i).mpr fun a => ?_
  match a with
  | ⟨0, _⟩ => show win1_1.index t1_0 (0 : Fin 2) * 1 ≤ (i 0).val ∧ (i 0).val < win1_1.index t1_0 (0 : Fin 2) * 1 + 1; have h : (i 0).val < 1 := (i 0).isLt; omega
  | ⟨1, _⟩ => show win1_1.index t1_0 (1 : Fin 2) * 1 ≤ (i 1).val ∧ (i 1).val < win1_1.index t1_0 (1 : Fin 2) * 1 + 1; have h : (i 1).val < 1 := (i 1).isLt; omega

end Cert.KernelIdeal.Region1

end
-- ==== Proof.KernelValue.lean ====
/-
  The kernel's run with its result read: the second launch's attention of rows 0, 1, 2 of the first launch's array, which
  are the scattered-weights products of the arguments.
-/
import proofs.«417990_j30554397343922_3_alg».proof.Proof.KernelRun
import proofs.«417990_j30554397343922_3_alg».proof.Proof.KHost
import proofs.«417990_j30554397343922_3_alg».proof.Proof.KRegion0
import proofs.«417990_j30554397343922_3_alg».proof.Proof.KRegion1

noncomputable section

namespace Cert.KernelIdeal.KValue

open Cert.KernelIdeal Cert.KernelIdeal.Gen Cert.KernelIdeal.Arr
open Idealize.ShloMosaic Idealize.ShloMosaic.TcCoe Idealize.ShloMosaic.ValueIdx Idealize.SL.Sem
open Facts₀ Facts

variable [Facts]
variable (m : (ℓ : Loc nD τ sig) → Buf (Elt Ideal) ℓ) (ρ : Dev nD → PrngReg)

/-- Row `a < 3` of the first launch's array is the scattered form of the arguments. -/
theorem row_eq (c : Dev nD) (hr : Cert.Spec.InRange (idxarg m c)) (a : Fin 3) (s : Fin 8192) :
    qkvT m ρ c (ix2 (Fin.castLE (by decide : 3 ≤ 8) a) s) = Cert.Spec.scat (xarg m c) (idxarg m c) (warg m c) a s := by
  rw [Cert.KernelIdeal.Region0.qkvT_apply]
  unfold Cert.Spec.scat
  refine Finset.sum_congr rfl fun f _ => ?_
  rw [Cert.KernelIdeal.HostValue.wpad_apply m ρ c hr f a, Cert.KernelIdeal.HostValue.xin_eq]

/-- The kernel's run, its result the attention of the scattered products. -/
theorem run (hr : ∀ c : Dev nD, Cert.Spec.InRange (idxarg m c)) :
    θ_run defs (onTc (τ := τ) (main (F := Ideal))) ⟨m, fun _ => 0, ρ⟩ (fun r => ∀ c : Dev nD,
      r.2.mem ((c.tc : Thread nD τ).loc main_v6) = (fun _ => Cert.Spec.attn
          (Cert.Spec.scat (xarg m c) (idxarg m c) (warg m c) 0)
          (Cert.Spec.scat (xarg m c) (idxarg m c) (warg m c) 1)
          (Cert.Spec.scat (xarg m c) (idxarg m c) (warg m c) 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (Cert.KernelIdeal.Run.run_main m ρ)
  rw [Cert.KernelIdeal.Region1.out_eq]
  have e (a : Fin 3) : (fun s => qkvT m ρ c (ix2 (Fin.castLE (by decide : 3 ≤ 8) a) s))
      = Cert.Spec.scat (xarg m c) (idxarg m c) (warg m c) a := funext fun s => row_eq m ρ c (hr c) a s
  rw [show (fun s => qkvT m ρ c (ix2 (0 : Fin 8) s)) = _ from e 0, show (fun s => qkvT m ρ c (ix2 (1 : Fin 8) s)) = _ from e 1,
    show (fun s => qkvT m ρ c (ix2 (2 : Fin 8) s)) = _ from e 2]

end Cert.KernelIdeal.KValue

end
-- ==== Proof.lean ====
/-
  The kernel replaces "gather the indexed columns of `x`, then project by `w`" with one dense product of `x` against the
  weight rows summed into the columns they index, and computes only the last query's attention; the reference gathers,
  projects, forms every query's attention and keeps the last row. Where the index words are columns of `x` and every float
  entry is a real number the two projections agree entry by entry (the sums distribute and the indicator collapses), and from
  the projection on both programs apply one function: the last query's logits, their maximum subtracted, exponentials
  normalised by their sum, the weighted sum of the values, the logistic. The frames are the generated ones (the kernel's) and
  the reference's run with its result dropped; the idealization rewrote nothing.
-/
import proofs.«417990_j30554397343922_3_alg».proof.Defs
import proofs.«417990_j30554397343922_3_alg».proof.Proof.Gen.Kernel
import proofs.«417990_j30554397343922_3_alg».proof.Proof.Gen.Kernel.Skeleton
import proofs.«417990_j30554397343922_3_alg».proof.Proof.Gen.Kernel.Launch
import proofs.«417990_j30554397343922_3_alg».proof.Proof.Gen.Kernel.Points
import proofs.«417990_j30554397343922_3_alg».proof.Proof.Gen.Kernel.Frame
import proofs.«417990_j30554397343922_3_alg».proof.Proof.Gen.KernelIdeal
import proofs.«417990_j30554397343922_3_alg».proof.Proof.Gen.KernelIdeal.Skeleton
import proofs.«417990_j30554397343922_3_alg».proof.Proof.Gen.KernelIdeal.Launch
import proofs.«417990_j30554397343922_3_alg».proof.Proof.Gen.KernelIdeal.Points
import proofs.«417990_j30554397343922_3_alg».proof.Proof.Gen.KernelIdeal.Frame
import proofs.«417990_j30554397343922_3_alg».proof.Proof.Gen.ReferenceIdeal
import proofs.«417990_j30554397343922_3_alg».proof.Proof.Gen.Pre_finite_inputs
import proofs.«417990_j30554397343922_3_alg».proof.Proof.Spec
import proofs.«417990_j30554397343922_3_alg».proof.Proof.PreFacts
import proofs.«417990_j30554397343922_3_alg».proof.Proof.RefRun
import proofs.«417990_j30554397343922_3_alg».proof.Proof.RefQkv
import proofs.«417990_j30554397343922_3_alg».proof.Proof.RefAttn
import proofs.«417990_j30554397343922_3_alg».proof.Proof.KernelValue
import Idealize.ShloMosaic.Adequacy
import Idealize.ShloMosaic.Init

noncomputable section

namespace Cert.Proof

open Idealize.ShloMosaic Idealize.ShloMosaic.ValueIdx Idealize.SL.Sem

/-- The reference's result term is the attention of the gathered projection, where the index words are in range. -/
theorem ref_eq [Cert.ReferenceIdeal.Facts] (x : FVec Ideal Cert.ReferenceIdeal.S8192x4096 .f32) (idx : IVec Cert.ReferenceIdeal.S2048 32)
    (w : FVec Ideal Cert.ReferenceIdeal.S2048x3 .f32) (hr : Cert.Spec.InRange idx) :
    Cert.ReferenceIdeal.RefValue.refTerm (F := Ideal) x idx w
      = fun _ => Cert.Spec.attn (Cert.Spec.proj x idx w 0) (Cert.Spec.proj x idx w 1) (Cert.Spec.proj x idx w 2) := by
  funext i
  unfold Cert.ReferenceIdeal.RefValue.refTerm
  rw [Cert.ReferenceIdeal.RefValue.attnTerm_apply]
  have e (c : Fin 3) : (fun s => Cert.ReferenceIdeal.RefValue.qkvTerm (F := Ideal) x idx w (ix2 s c)) = Cert.Spec.proj x idx w c :=
    funext fun s => Cert.ReferenceIdeal.RefValue.qkvTerm_apply x idx w hr s c
  rw [e 0, e 1, e 2]

theorem claim : Cert.Claim := ⟨Cert.Kernel.Gen.facts, Cert.KernelIdeal.Gen.facts, Cert.ReferenceIdeal.Gen.facts, Cert.Pre_finite_inputs.Gen.facts, by
  letI := Cert.Kernel.Gen.facts
  letI := Cert.KernelIdeal.Gen.facts
  letI := Cert.ReferenceIdeal.Gen.facts
  letI := Cert.Pre_finite_inputs.Gen.facts
  refine ⟨fun m ρ _ => Cert.Kernel.Gen.frame m ρ, fun m ρ _ => Cert.KernelIdeal.Gen.frame m ρ, ?_, trivial, ?_⟩
  · intro m ρ _
    exact (θ_run Cert.ReferenceIdeal.defs _ _).mono (fun _ h c => (h c).2) (Cert.ReferenceIdeal.RefValue.run (F := Ideal) m ρ)
  · intro m ρ m' ρ' hpre hagree
    have hfacts := fun c => Cert.PreFacts.of_pre _ _ _ (hpre c)
    refine ⟨_, Cert.KernelIdeal.KValue.run m ρ (fun c => (hfacts c).2.2), ?_⟩
    refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2]
    rw [ref_eq _ _ _ (hfacts c).2.2]
    have e (a : Fin 3) :
        Cert.Spec.proj (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) a
          = Cert.Spec.scat (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) a :=
      funext fun s => (Cert.Spec.scat_eq_proj _ _ _ (hfacts c).1 (hfacts c).2.1 a s).symm
    rw [e 0, e 1, e 2]
    rfl⟩

end Cert.Proof

end
